-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S2000000x3 : Shape := ⟨2, ![2000000, 3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel

variable [Facts]

def fn {F : FTy → Type} [FloatOps F] (main_arg0 : FVec F S1000000x3 .f32) (main_arg1 : IVec S2000000x3 32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  main_v3
-- ==== Kernel.lean ====
abbrev S1000000x3 : Shape := ⟨2, ![1000000, 3]⟩
abbrev S2000000x3 : Shape := ⟨2, ![2000000, 3]⟩
abbrev S3 : Shape := ⟨1, ![3]⟩
abbrev S_ : Shape := ⟨0, ![]⟩
abbrev S3x1 : Shape := ⟨2, ![3, 1]⟩
abbrev S6000000 : Shape := ⟨1, ![6000000]⟩
abbrev S12000000 : Shape := ⟨1, ![12000000]⟩
abbrev S12000000x1 : Shape := ⟨2, ![12000000, 1]⟩
abbrev S1 : Shape := ⟨1, ![1]⟩
abbrev S11999999 : Shape := ⟨1, ![11999999]⟩
abbrev S12000000x3 : Shape := ⟨2, ![12000000, 3]⟩
abbrev S1000000 : Shape := ⟨1, ![1000000]⟩
abbrev S1048576x3 : Shape := ⟨2, ![1048576, 3]⟩
abbrev S1048576 : Shape := ⟨1, ![1048576]⟩
abbrev S3x1048576 : Shape := ⟨2, ![3, 1048576]⟩
abbrev S1x1048576 : Shape := ⟨2, ![1, 1048576]⟩
abbrev S1x1 : Shape := ⟨2, ![1, 1]⟩
abbrev S1x131072 : Shape := ⟨2, ![1, 131072]⟩
abbrev S3x131072 : Shape := ⟨2, ![3, 131072]⟩

abbrev nBuf : Space → Nat
  | .hbm => 95
  | .vmem => 8
  | .smem => 0
  | _ => 0

abbrev bufTy : (tb : Table) → Fin (tcTables nBuf tb) → BufTy
  | .hbm, ⟨0, _⟩ => ⟨S1000000x3, .f32⟩
  | .hbm, ⟨1, _⟩ => ⟨S2000000x3, .i32⟩
  | .hbm, ⟨2, _⟩ => ⟨S3, .i32⟩
  | .hbm, ⟨3, _⟩ => ⟨S3, .i32⟩
  | .hbm, ⟨4, _⟩ => ⟨S_, .i32⟩
  | .hbm, ⟨5, _⟩ => ⟨S3, .i32⟩
  | .hbm, ⟨6, _⟩ => ⟨S3, .i1⟩
  | .hbm, ⟨7, _⟩ => ⟨S_, .i32⟩
  | .hbm, ⟨8, _⟩ => ⟨S3, .i32⟩
  | .hbm, ⟨9, _⟩ => ⟨S3, .i32⟩
  | .hbm, ⟨10, _⟩ => ⟨S3, .i32⟩
  | .hbm, ⟨11, _⟩ => ⟨S3x1, .i32⟩
  | .hbm, ⟨12, _⟩ => ⟨S2000000x3, .i32⟩
  | .hbm, ⟨13, _⟩ => ⟨S6000000, .i32⟩
  | .hbm, ⟨14, _⟩ => ⟨S_, .i32⟩
  | .hbm, ⟨15, _⟩ => ⟨S3, .i32⟩
  | .hbm, ⟨16, _⟩ => ⟨S3, .i1⟩
  | .hbm, ⟨17, _⟩ => ⟨S_, .i32⟩
  | .hbm, ⟨18, _⟩ => ⟨S3, .i32⟩
  | .hbm, ⟨19, _⟩ => ⟨S3, .i32⟩
  | .hbm, ⟨20, _⟩ => ⟨S3, .i32⟩
  | .hbm, ⟨21, _⟩ => ⟨S3x1, .i32⟩
  | .hbm, ⟨22, _⟩ => ⟨S2000000x3, .i32⟩
  | .hbm, ⟨23, _⟩ => ⟨S6000000, .i32⟩
  | .hbm, ⟨24, _⟩ => ⟨S12000000, .i32⟩
  | .hbm, ⟨25, _⟩ => ⟨S12000000, .i32⟩
  | .hbm, ⟨26, _⟩ => ⟨S12000000, .i32⟩
  | .hbm, ⟨27, _⟩ => ⟨S12000000, .i32⟩
  | .hbm, ⟨28, _⟩ => ⟨S12000000, .i32⟩
  | .hbm, ⟨29, _⟩ => ⟨S12000000, .i32⟩
  | .hbm, ⟨30, _⟩ => ⟨S_, .i32⟩
  | .hbm, ⟨31, _⟩ => ⟨S12000000, .i32⟩
  | .hbm, ⟨32, _⟩ => ⟨S12000000, .i1⟩
  | .hbm, ⟨33, _⟩ => ⟨S_, .i32⟩
  | .hbm, ⟨34, _⟩ => ⟨S12000000, .i32⟩
  | .hbm, ⟨35, _⟩ => ⟨S12000000, .i32⟩
  | .hbm, ⟨36, _⟩ => ⟨S12000000, .i32⟩
  | .hbm, ⟨37, _⟩ => ⟨S12000000x1, .i32⟩
  | .hbm, ⟨38, _⟩ => ⟨S12000000, .i32⟩
  | .hbm, ⟨39, _⟩ => ⟨S_, .i32⟩
  | .hbm, ⟨40, _⟩ => ⟨S12000000, .i32⟩
  | .hbm, ⟨41, _⟩ => ⟨S12000000, .i1⟩
  | .hbm, ⟨42, _⟩ => ⟨S_, .i32⟩
  | .hbm, ⟨43, _⟩ => ⟨S12000000, .i32⟩
  | .hbm, ⟨44, _⟩ => ⟨S12000000, .i32⟩
  | .hbm, ⟨45, _⟩ => ⟨S12000000, .i32⟩
  | .hbm, ⟨46, _⟩ => ⟨S12000000x1, .i32⟩
  | .hbm, ⟨47, _⟩ => ⟨S12000000, .i32⟩
  | .hbm, ⟨48, _⟩ => ⟨S_, .i1⟩
  | .hbm, ⟨49, _⟩ => ⟨S1, .i1⟩
  | .hbm, ⟨50, _⟩ => ⟨S11999999, .i32⟩
  | .hbm, ⟨51, _⟩ => ⟨S11999999, .i32⟩
  | .hbm, ⟨52, _⟩ => ⟨S11999999, .i1⟩
  | .hbm, ⟨53, _⟩ => ⟨S11999999, .i32⟩
  | .hbm, ⟨54, _⟩ => ⟨S11999999, .i32⟩
  | .hbm, ⟨55, _⟩ => ⟨S11999999, .i1⟩
  | .hbm, ⟨56, _⟩ => ⟨S11999999, .i1⟩
  | .hbm, ⟨57, _⟩ => ⟨S12000000, .i1⟩
  | .hbm, ⟨58, _⟩ => ⟨S12000000, .f32⟩
  | .hbm, ⟨59, _⟩ => ⟨S12000000x1, .f32⟩
  | .hbm, ⟨60, _⟩ => ⟨S_, .i32⟩
  | .hbm, ⟨61, _⟩ => ⟨S12000000, .i32⟩
  | .hbm, ⟨62, _⟩ => ⟨S12000000, .i1⟩
  | .hbm, ⟨63, _⟩ => ⟨S_, .i32⟩
  | .hbm, ⟨64, _⟩ => ⟨S12000000, .i32⟩
  | .hbm, ⟨65, _⟩ => ⟨S12000000, .i32⟩
  | .hbm, ⟨66, _⟩ => ⟨S12000000, .i32⟩
  | .hbm, ⟨67, _⟩ => ⟨S12000000x1, .i32⟩
  | .hbm, ⟨68, _⟩ => ⟨S12000000x3, .f32⟩
  | .hbm, ⟨69, _⟩ => ⟨S12000000x3, .f32⟩
  | .hbm, ⟨70, _⟩ => ⟨S12000000x3, .f32⟩
  | .hbm, ⟨71, _⟩ => ⟨S_, .f32⟩
  | .hbm, ⟨72, _⟩ => ⟨S1000000x3, .f32⟩
  | .hbm, ⟨73, _⟩ => ⟨S12000000x1, .i32⟩
  | .hbm, ⟨74, _⟩ => ⟨S1000000x3, .f32⟩
  | .hbm, ⟨75, _⟩ => ⟨S_, .f32⟩
  | .hbm, ⟨76, _⟩ => ⟨S1000000, .f32⟩
  | .hbm, ⟨77, _⟩ => ⟨S12000000x1, .i32⟩
  | .hbm, ⟨78, _⟩ => ⟨S1000000, .f32⟩
  | .hbm, ⟨79, _⟩ => ⟨S_, .i32⟩
  | .hbm, ⟨80, _⟩ => ⟨S_, .f32⟩
  | .hbm, ⟨81, _⟩ => ⟨S1048576x3, .f32⟩
  | .hbm, ⟨82, _⟩ => ⟨S_, .i32⟩
  | .hbm, ⟨83, _⟩ => ⟨S_, .f32⟩
  | .hbm, ⟨84, _⟩ => ⟨S1048576x3, .f32⟩
  | .hbm, ⟨85, _⟩ => ⟨S_, .i32⟩
  | .hbm, ⟨86, _⟩ => ⟨S_, .f32⟩
  | .hbm, ⟨87, _⟩ => ⟨S1048576, .f32⟩
  | .hbm, ⟨88, _⟩ => ⟨S3x1048576, .f32⟩
  | .hbm, ⟨89, _⟩ => ⟨S3x1048576, .f32⟩
  | .hbm, ⟨90, _⟩ => ⟨S1x1048576, .f32⟩
  | .hbm, ⟨91, _⟩ => ⟨S1x1, .f32⟩
  | .hbm, ⟨92, _⟩ => ⟨S_, .f32⟩
  | .hbm, ⟨93, _⟩ => ⟨S_, .f32⟩
  | .hbm, ⟨94, _⟩ => ⟨S_, .f32⟩
  | .local _ .vmem, ⟨0, _⟩ => ⟨S1x131072, .f32⟩
  | .local _ .vmem, ⟨1, _⟩ => ⟨S1x131072, .f32⟩
  | .local _ .vmem, ⟨2, _⟩ => ⟨S3x131072, .f32⟩
  | .local _ .vmem, ⟨3, _⟩ => ⟨S3x131072, .f32⟩
  | .local _ .vmem, ⟨4, _⟩ => ⟨S3x131072, .f32⟩
  | .local _ .vmem, ⟨5, _⟩ => ⟨S3x131072, .f32⟩
  | .local _ .vmem, ⟨6, _⟩ => ⟨S1x1, .f32⟩
  | .local _ .vmem, ⟨7, _⟩ => ⟨S1x1, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_c_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1_0 : Ref sig .tc := ⟨.hbm, 27, rfl⟩
abbrev main_call0_v1_1 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_10 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_13 : Ref sig .tc := ⟨.hbm, 79, rfl⟩
abbrev main_call1_v0 : Ref sig .tc := ⟨.hbm, 80, rfl⟩
abbrev main_v59 : Ref sig .tc := ⟨.hbm, 81, rfl⟩
abbrev main_c_14 : Ref sig .tc := ⟨.hbm, 82, rfl⟩
abbrev main_call2_v0 : Ref sig .tc := ⟨.hbm, 83, rfl⟩
abbrev main_v60 : Ref sig .tc := ⟨.hbm, 84, rfl⟩
abbrev main_c_15 : Ref sig .tc := ⟨.hbm, 85, rfl⟩
abbrev main_call3_v0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_16 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v31 : BitVec 1 := Scalar.cmpi .eq arg0 c7_i32
  let v32 : BitVec 32 := Scalar.extui v31
  let c0_i32_10 : BitVec 32 := 0#32
  let v33 : BitVec 1 := Scalar.cmpi .ne v32 c0_i32_10
  v33

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S3 : S_.BroadcastsInDim S3 (![] : Fin 0 → Fin S3.rank)
  bcast_S3_S3x1_0 : S3.BroadcastsInDim S3x1 (![0] : Fin 1 → Fin S3x1.rank)
  shapeCasts_S2000000x3_S6000000 : S2000000x3.ShapeCasts S6000000
  concatenates_S6000000_S6000000_S12000000_d0 : Shape.Concatenates [S6000000, S6000000] S12000000 0
  bcast_S_S12000000 : S_.BroadcastsInDim S12000000 (![] : Fin 0 → Fin S12000000.rank)
  bcast_S12000000_S12000000x1_0 : S12000000.BroadcastsInDim S12000000x1 (![0] : Fin 1 → Fin S12000000x1.rank)
  bcast_S_S1 : S_.BroadcastsInDim S1 (![] : Fin 0 → Fin S1.rank)
  slices_S12000000_S11999999_1 : S12000000.Slices ![1] S11999999
  slices_S12000000_S11999999_0 : S12000000.Slices ![0] S11999999
  concatenates_S1_S11999999_S12000000_d0 : Shape.Concatenates [S1, S11999999] S12000000 0
  bcast_S12000000x1_S12000000x3_0_1 : S12000000x1.BroadcastsInDim S12000000x3 (![0, 1] : Fin 2 → Fin S12000000x3.rank)
  bcast_S_S1000000x3 : S_.BroadcastsInDim S1000000x3 (![] : Fin 0 → Fin S1000000x3.rank)
  bcast_S_S1000000 : S_.BroadcastsInDim S1000000 (![] : Fin 0 → Fin S1000000.rank)
  pads_S1000000x3_S1048576x3_0485760_000 : S1000000x3.Pads (![0, 0] : Fin 2 → Nat) ![48576, 0] ![0, 0] S1048576x3
  h_S_ : 0 < S_.numel
  pads_S1000000_S1048576_0485760 : S1000000.Pads (![0] : Fin 1 → Nat) ![48576] ![0] S1048576
  transposes_S1048576x3_S3x1048576_1_0 : S1048576x3.Transposes [1, 0] S3x1048576
  bcast_S1048576_S1x1048576_1 : S1048576.BroadcastsInDim S1x1048576 (![1] : Fin 1 → Fin S1x1048576.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x131072_S1x131072_0_0 : ∀ a, (![0, 0] : Fin 2 → Nat) a + S1x131072.size a ≤ S1x131072.size a
  h_S1x131072 : 0 < S1x131072.numel
  shapeCasts_S1x131072_S1x131072 : S1x131072.ShapeCasts S1x131072
  inb_S3x131072_S3x131072_0_0 : ∀ a, (![0, 0] : Fin 2 → Nat) a + S3x131072.size a ≤ S3x131072.size a
  h_S3x131072 : 0 < S3x131072.numel
  shapeCasts_S3x131072_S3x131072 : S3x131072.ShapeCasts S3x131072
  broadcasts_S1x131072_S3x131072 : S1x131072.Broadcasts S3x131072
  slices_S3x131072_o0_0_S1x131072 : S3x131072.Slices ![0, 0] S1x131072
  slices_S3x131072_o1_0_S1x131072 : S3x131072.Slices ![1, 0] S1x131072
  slices_S3x131072_o2_0_S1x131072 : S3x131072.Slices ![2, 0] S1x131072
  reduces_S1x131072_S1 : S1x131072.Reduces [1] S1
  shapeCasts_S1_S1x1 : S1.ShapeCasts S1x1
  shapeCasts_S1x1_S_ : S1x1.ShapeCasts S_
  gather_S2000000x3_S3x1_S2000000x3_0_1_n_n_1_1_20000001_wf : GatherDims.WF S2000000x3 S3x1 S2000000x3 [0] [1] [] [1] [] 1 ![2000000, 1]
  gather_S12000000_S12000000x1_S12000000_n_0_n_n_0_1_1_wf : GatherDims.WF S12000000 S12000000x1 S12000000 [] [0] [] [0] [] 1 ![1]
  gather_S1000000x3_S12000000x1_S12000000x3_1_0_n_n_0_1_13_wf : GatherDims.WF S1000000x3 S12000000x1 S12000000x3 [1] [0] [] [0] [] 1 ![1, 3]
  scatter_S1000000x3_S12000000x1_S12000000x3_1_0_0_1_wf : ScatterDims.WF S1000000x3 S12000000x1 S12000000x3 [1] [0] [0] 1
  scatter_S1000000_S12000000x1_S12000000_n_0_0_1_wf : ScatterDims.WF S1000000 S12000000x1 S12000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x131072.size a ≤ S1x1048576.size a
  hwx0_0 : ∀ i : grid0.Coords, EltTy.bits .f32 = 32 ∨ (Rect.block (s := S1x1048576) S1x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x131072.size a ≤ S3x1048576.size a
  hwx0_1 : ∀ i : grid0.Coords, EltTy.bits .f32 = 32 ∨ (Rect.block (s := S3x1048576) S3x131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x131072.size a ≤ S3x1048576.size a
  hwx0_2 : ∀ i : grid0.Coords, EltTy.bits .f32 = 32 ∨ (Rect.block (s := S3x1048576) S3x131072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S2000000x3_S3x1_S2000000x3_0_1_n_n_1_1_20000001 : GatherDims S2000000x3 S3x1 S2000000x3 where
  offsetDims := [0]
  collapsedSliceDims := [1]
  operandBatchingDims := []
  startIndicesBatchingDims := []
  startIndexMap := [1]
  indexVectorDim := 1
  sliceSizes := ![2000000, 1]
  wf := gather_S2000000x3_S3x1_S2000000x3_0_1_n_n_1_1_20000001_wf
def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S12000000_S12000000x1_S12000000_n_0_n_n_0_1_1 : GatherDims S12000000 S12000000x1 S12000000 where
  offsetDims := []
  collapsedSliceDims := [0]
  operandBatchingDims := []
  startIndicesBatchingDims := []
  startIndexMap := [0]
  indexVectorDim := 1
  sliceSizes := ![1]
  wf := gather_S12000000_S12000000x1_S12000000_n_0_n_n_0_1_1_wf
def gather_S1000000x3_S12000000x1_S12000000x3_1_0_n_n_0_1_13 : GatherDims S1000000x3 S12000000x1 S12000000x3 where
  offsetDims := [1]
  collapsedSliceDims := [0]
  operandBatchingDims := []
  startIndicesBatchingDims := []
  startIndexMap := [0]
  indexVectorDim := 1
  sliceSizes := ![1, 3]
  wf := gather_S1000000x3_S12000000x1_S12000000x3_1_0_n_n_0_1_13_wf
def scatter_S1000000x3_S12000000x1_S12000000x3_1_0_0_1 : ScatterDims S1000000x3 S12000000x1 S12000000x3 where
  updateWindowDims := [1]
  insertedWindowDims := [0]
  scatterDimsToOperandDims := [0]
  indexVectorDim := 1
  wf := scatter_S1000000x3_S12000000x1_S12000000x3_1_0_0_1_wf
def scatter_S1000000_S12000000x1_S12000000_n_0_0_1 : ScatterDims S1000000 S12000000x1 S12000000 where
  updateWindowDims := []
  insertedWindowDims := [0]
  scatterDimsToOperandDims := [0]
  indexVectorDim := 1
  wf := scatter_S1000000_S12000000x1_S12000000_n_0_0_1_wf

abbrev win0_0 : Pipeline.Window sig grid0 :=
  Pipeline.Window.ofSpec (Memref.whole main_v64) S1x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v63) S3x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S3x131072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1000000x3 : Shape := ⟨2, ![1000000, 3]⟩
abbrev S2000000x3 : Shape := ⟨2, ![2000000, 3]⟩
abbrev S3 : Shape := ⟨1, ![3]⟩
abbrev S_ : Shape := ⟨0, ![]⟩
abbrev S3x1 : Shape := ⟨2, ![3, 1]⟩
abbrev S6000000 : Shape := ⟨1, ![6000000]⟩
abbrev S12000000 : Shape := ⟨1, ![12000000]⟩
abbrev S12000000x1 : Shape := ⟨2, ![12000000, 1]⟩
abbrev S1 : Shape := ⟨1, ![1]⟩
abbrev S11999999 : Shape := ⟨1, ![11999999]⟩
abbrev S12000000x3 : Shape := ⟨2, ![12000000, 3]⟩
abbrev S1000000 : Shape := ⟨1, ![1000000]⟩
abbrev S1000000x1 : Shape := ⟨2, ![1000000, 1]⟩

abbrev nBuf : Space → Nat
  | .hbm => 91
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S2000000x3, .i32⟩
  | .hbm, ⟨2, _⟩ => ⟨S3, .i32⟩
  | .hbm, ⟨3, _⟩ => ⟨S3, .i32⟩
  | .hbm, ⟨4, _⟩ => ⟨S_, .i32⟩
  | .hbm, ⟨5, _⟩ => ⟨S3, .i32⟩
  | .hbm, ⟨6, _⟩ => ⟨S3, .i1⟩
  | .hbm, ⟨7, _⟩ => ⟨S_, .i32⟩
  | .hbm, ⟨8, _⟩ => ⟨S3, .i32⟩
  | .hbm, ⟨9, _⟩ => ⟨S3, .i32⟩
  | .hbm, ⟨10, _⟩ => ⟨S3, .i32⟩
  | .hbm, ⟨11, _⟩ => ⟨S3x1, .i32⟩
  | .hbm, ⟨12, _⟩ => ⟨S2000000x3, .i32⟩
  | .hbm, ⟨13, _⟩ => ⟨S6000000, .i32⟩
  | .hbm, ⟨14, _⟩ => ⟨S_, .i32⟩
  | .hbm, ⟨15, _⟩ => ⟨S3, .i32⟩
  | .hbm, ⟨16, _⟩ => ⟨S3, .i1⟩
  | .hbm, ⟨17, _⟩ => ⟨S_, .i32⟩
  | .hbm, ⟨18, _⟩ => ⟨S3, .i32⟩
  | .hbm, ⟨19, _⟩ => ⟨S3, .i32⟩
  | .hbm, ⟨20, _⟩ => ⟨S3, .i32⟩
  | .hbm, ⟨21, _⟩ => ⟨S3x1, .i32⟩
  | .hbm, ⟨22, _⟩ => ⟨S2000000x3, .i32⟩
  | .hbm, ⟨23, _⟩ => ⟨S6000000, .i32⟩
  | .hbm, ⟨24, _⟩ => ⟨S12000000, .i32⟩
  | .hbm, ⟨25, _⟩ => ⟨S12000000, .i32⟩
  | .hbm, ⟨26, _⟩ => ⟨S12000000, .i32⟩
  | .hbm, ⟨27, _⟩ => ⟨S12000000, .i32⟩
  | .hbm, ⟨28, _⟩ => ⟨S12000000, .i32⟩
  | .hbm, ⟨29, _⟩ => ⟨S12000000, .i32⟩
  | .hbm, ⟨30, _⟩ => ⟨S_, .i32⟩
  | .hbm, ⟨31, _⟩ => ⟨S12000000, .i32⟩
  | .hbm, ⟨32, _⟩ => ⟨S12000000, .i1⟩
  | .hbm, ⟨33, _⟩ => ⟨S_, .i32⟩
  | .hbm, ⟨34, _⟩ => ⟨S12000000, .i32⟩
  | .hbm, ⟨35, _⟩ => ⟨S12000000, .i32⟩
  | .hbm, ⟨36, _⟩ => ⟨S12000000, .i32⟩
  | .hbm, ⟨37, _⟩ => ⟨S12000000x1, .i32⟩
  | .hbm, ⟨38, _⟩ => ⟨S12000000, .i32⟩
  | .hbm, ⟨39, _⟩ => ⟨S_, .i32⟩
  | .hbm, ⟨40, _⟩ => ⟨S12000000, .i32⟩
  | .hbm, ⟨41, _⟩ => ⟨S12000000, .i1⟩
  | .hbm, ⟨42, _⟩ => ⟨S_, .i32⟩
  | .hbm, ⟨43, _⟩ => ⟨S12000000, .i32⟩
  | .hbm, ⟨44, _⟩ => ⟨S12000000, .i32⟩
  | .hbm, ⟨45, _⟩ => ⟨S12000000, .i32⟩
  | .hbm, ⟨46, _⟩ => ⟨S12000000x1, .i32⟩
  | .hbm, ⟨47, _⟩ => ⟨S12000000, .i32⟩
  | .hbm, ⟨48, _⟩ => ⟨S_, .i1⟩
  | .hbm, ⟨49, _⟩ => ⟨S1, .i1⟩
  | .hbm, ⟨50, _⟩ => ⟨S11999999, .i32⟩
  | .hbm, ⟨51, _⟩ => ⟨S11999999, .i32⟩
  | .hbm, ⟨52, _⟩ => ⟨S11999999, .i1⟩
  | .hbm, ⟨53, _⟩ => ⟨S11999999, .i32⟩
  | .hbm, ⟨54, _⟩ => ⟨S11999999, .i32⟩
  | .hbm, ⟨55, _⟩ => ⟨S11999999, .i1⟩
  | .hbm, ⟨56, _⟩ => ⟨S11999999, .i1⟩
  | .hbm, ⟨57, _⟩ => ⟨S12000000, .i1⟩
  | .hbm, ⟨58, _⟩ => ⟨S12000000, .f32⟩
  | .hbm, ⟨59, _⟩ => ⟨S12000000x1, .f32⟩
  | .hbm, ⟨60, _⟩ => ⟨S_, .i32⟩
  | .hbm, ⟨61, _⟩ => ⟨S12000000, .i32⟩
  | .hbm, ⟨62, _⟩ => ⟨S12000000, .i1⟩
  | .hbm, ⟨63, _⟩ => ⟨S_, .i32⟩
  | .hbm, ⟨64, _⟩ => ⟨S12000000, .i32⟩
  | .hbm, ⟨65, _⟩ => ⟨S12000000, .i32⟩
  | .hbm, ⟨66, _⟩ => ⟨S12000000, .i32⟩
  | .hbm, ⟨67, _⟩ => ⟨S12000000x1, .i32⟩
  | .hbm, ⟨68, _⟩ => ⟨S12000000x3, .f32⟩
  | .hbm, ⟨69, _⟩ => ⟨S12000000x3, .f32⟩
  | .hbm, ⟨70, _⟩ => ⟨S12000000x3, .f32⟩
  | .hbm, ⟨71, _⟩ => ⟨S_, .f32⟩
  | .hbm, ⟨72, _⟩ => ⟨S1000000x3, .f32⟩
  | .hbm, ⟨73, _⟩ => ⟨S12000000x1, .i32⟩
  | .hbm, ⟨74, _⟩ => ⟨S1000000x3, .f32⟩
  | .hbm, ⟨75, _⟩ => ⟨S_, .f32⟩
  | .hbm, ⟨76, _⟩ => ⟨S1000000, .f32⟩
  | .hbm, ⟨77, _⟩ => ⟨S12000000x1, .i32⟩
  | .hbm, ⟨78, _⟩ => ⟨S1000000, .f32⟩
  | .hbm, ⟨79, _⟩ => ⟨S1000000x1, .f32⟩
  | .hbm, ⟨80, _⟩ => ⟨S1000000x3, .f32⟩
  | .hbm, ⟨81, _⟩ => ⟨S1000000x3, .f32⟩
  | .hbm, ⟨82, _⟩ => ⟨S1000000x3, .f32⟩
  | .hbm, ⟨83, _⟩ => ⟨S1000000x3, .f32⟩
  | .hbm, ⟨84, _⟩ => ⟨S_, .f32⟩
  | .hbm, ⟨85, _⟩ => ⟨S1000000, .f32⟩
  | .hbm, ⟨86, _⟩ => ⟨S1000000, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_c_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1_0 : Ref sig .tc := ⟨.hbm, 27, rfl⟩
abbrev main_call0_v1_1 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_10 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_call1_v0 : Ref sig .tc := ⟨.hbm, 83, rfl⟩
abbrev main_call1_cst : Ref sig .tc := ⟨.hbm, 84, rfl⟩
abbrev main_call1_v1 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S3_S3x1_0 : S3.BroadcastsInDim S3x1 (![0] : Fin 1 → Fin S3x1.rank)
  shapeCasts_S2000000x3_S6000000 : S2000000x3.ShapeCasts S6000000
  concatenates_S6000000_S6000000_S12000000_d0 : Shape.Concatenates [S6000000, S6000000] S12000000 0
  bcast_S_S12000000 : S_.BroadcastsInDim S12000000 (![] : Fin 0 → Fin S12000000.rank)
  bcast_S12000000_S12000000x1_0 : S12000000.BroadcastsInDim S12000000x1 (![0] : Fin 1 → Fin S12000000x1.rank)
  bcast_S_S1 : S_.BroadcastsInDim S1 (![] : Fin 0 → Fin S1.rank)
  slices_S12000000_S11999999_1 : S12000000.Slices ![1] S11999999
  slices_S12000000_S11999999_0 : S12000000.Slices ![0] S11999999
  concatenates_S1_S11999999_S12000000_d0 : Shape.Concatenates [S1, S11999999] S12000000 0
  bcast_S12000000x1_S12000000x3_0_1 : S12000000x1.BroadcastsInDim S12000000x3 (![0, 1] : Fin 2 → Fin S12000000x3.rank)
  bcast_S_S1000000x3 : S_.BroadcastsInDim S1000000x3 (![] : Fin 0 → Fin S1000000x3.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x3_0_1 : S1000000x1.BroadcastsInDim S1000000x3 (![0, 1] : Fin 2 → Fin S1000000x3.rank)
  reducesTo_S1000000x3_S1000000_d1 : S1000000x3.ReducesTo [1] S1000000
  h_S_ : 0 < S_.numel
  reducesTo_S1000000_S_d0 : S1000000.ReducesTo [0] S_
  gather_S2000000x3_S3x1_S2000000x3_0_1_n_n_1_1_20000001_wf : GatherDims.WF S2000000x3 S3x1 S2000000x3 [0] [1] [] [1] [] 1 ![2000000, 1]
  gather_S12000000_S12000000x1_S12000000_n_0_n_n_0_1_1_wf : GatherDims.WF S12000000 S12000000x1 S12000000 [] [0] [] [0] [] 1 ![1]
  gather_S1000000x3_S12000000x1_S12000000x3_1_0_n_n_0_1_13_wf : GatherDims.WF S1000000x3 S12000000x1 S12000000x3 [1] [0] [] [0] [] 1 ![1, 3]
  scatter_S1000000x3_S12000000x1_S12000000x3_1_0_0_1_wf : ScatterDims.WF S1000000x3 S12000000x1 S12000000x3 [1] [0] [0] 1
  scatter_S1000000_S12000000x1_S12000000_n_0_0_1_wf : ScatterDims.WF S1000000 S12000000x1 S12000000 [] [0] [0] 1

variable [Facts₀]

def gather_S2000000x3_S3x1_S2000000x3_0_1_n_n_1_1_20000001 : GatherDims S2000000x3 S3x1 S2000000x3 where
  offsetDims := [0]
  collapsedSliceDims := [1]
  operandBatchingDims := []
  startIndicesBatchingDims := []
  startIndexMap := [1]
  indexVectorDim := 1
  sliceSizes := ![2000000, 1]
  wf := gather_S2000000x3_S3x1_S2000000x3_0_1_n_n_1_1_20000001_wf
def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S12000000_S12000000x1_S12000000_n_0_n_n_0_1_1 : GatherDims S12000000 S12000000x1 S12000000 where
  offsetDims := []
  collapsedSliceDims := [0]
  operandBatchingDims := []
  startIndicesBatchingDims := []
  startIndexMap := [0]
  indexVectorDim := 1
  sliceSizes := ![1]
  wf := gather_S12000000_S12000000x1_S12000000_n_0_n_n_0_1_1_wf
def gather_S1000000x3_S12000000x1_S12000000x3_1_0_n_n_0_1_13 : GatherDims S1000000x3 S12000000x1 S12000000x3 where
  offsetDims := [1]
  collapsedSliceDims := [0]
  operandBatchingDims := []
  startIndicesBatchingDims := []
  startIndexMap := [0]
  indexVectorDim := 1
  sliceSizes := ![1, 3]
  wf := gather_S1000000x3_S12000000x1_S12000000x3_1_0_n_n_0_1_13_wf
def scatter_S1000000x3_S12000000x1_S12000000x3_1_0_0_1 : ScatterDims S1000000x3 S12000000x1 S12000000x3 where
  updateWindowDims := [1]
  insertedWindowDims := [0]
  scatterDimsToOperandDims := [0]
  indexVectorDim := 1
  wf := scatter_S1000000x3_S12000000x1_S12000000x3_1_0_0_1_wf
def scatter_S1000000_S12000000x1_S12000000_n_0_0_1 : ScatterDims S1000000 S12000000x1 S12000000 where
  updateWindowDims := []
  insertedWindowDims := [0]
  scatterDimsToOperandDims := [0]
  indexVectorDim := 1
  wf := scatter_S1000000_S12000000x1_S12000000_n_0_0_1_wf

class Facts : Prop extends Facts₀ where

variable [Facts]
-- ==== Proof.RefOps.lean ====
/- (a table: the reference's @main as five literal lists of its host operations in order, the calls' bodies at their call sites) -/
import proofs.«110358_j30545807409222_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's first printed window, first stretch: the two lists of directed edges: 24 operations, in order. -/
abbrev ops0a : List (HloOp τ sig (Elt F)) :=
  [ nullary main_c (fun i => lit0 (S3.rowMajor i)),
    nullary main_c_0 (fun i => lit1 (S3.rowMajor i)),
    nullary main_c_1 (constantI S_ 32 0#32),
    unary main_c_1 main_v0 (broadcastInDim S3 ![] bcast_S_S3 : (⟨S_, .i32⟩ : BufTy).Contents (Elt F) → (⟨S3, .i32⟩ : BufTy).Contents (Elt F)),
    binary main_c main_v0 main_v1 (cmpi .slt : (⟨S3, .i32⟩ : BufTy).Contents (Elt F) → (⟨S3, .i32⟩ : BufTy).Contents (Elt F) → (⟨S3, .i1⟩ : BufTy).Contents (Elt F)),
    nullary main_c_2 (constantI S_ 32 3#32),
    unary main_c_2 main_v2 (broadcastInDim S3 ![] bcast_S_S3 : (⟨S_, .i32⟩ : BufTy).Contents (Elt F) → (⟨S3, .i32⟩ : BufTy).Contents (Elt F)),
    binary main_c main_v2 main_v3 (addi : (⟨S3, .i32⟩ : BufTy).Contents (Elt F) → (⟨S3, .i32⟩ : BufTy).Contents (Elt F) → (⟨S3, .i32⟩ : BufTy).Contents (Elt F)),
    ternary main_v1 main_v3 main_c main_v4 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v4 main_v5 (broadcastInDim S3x1 ![0] bcast_S3_S3x1_0 : (⟨S3, .i32⟩ : BufTy).Contents (Elt F) → (⟨S3x1, .i32⟩ : BufTy).Contents (Elt F)),
    binary main_arg1 main_v5 main_v6 ((fun x i => Host.gather gather_S2000000x3_S3x1_S2000000x3_0_1_n_n_1_1_20000001 x i) : (⟨S2000000x3, .i32⟩ : BufTy).Contents (Elt F) → (⟨S3x1, .i32⟩ : BufTy).Contents (Elt F) → (⟨S2000000x3, .i32⟩ : BufTy).Contents (Elt F)),
    reshape main_v6 main_v7 rfl shapeCasts_S2000000x3_S6000000,
    nullary main_c_3 (constantI S_ 32 0#32),
    unary main_c_3 main_v8 (broadcastInDim S3 ![] bcast_S_S3 : (⟨S_, .i32⟩ : BufTy).Contents (Elt F) → (⟨S3, .i32⟩ : BufTy).Contents (Elt F)),
    binary main_c_0 main_v8 main_v9 (cmpi .slt : (⟨S3, .i32⟩ : BufTy).Contents (Elt F) → (⟨S3, .i32⟩ : BufTy).Contents (Elt F) → (⟨S3, .i1⟩ : BufTy).Contents (Elt F)),
    nullary main_c_4 (constantI S_ 32 3#32),
    unary main_c_4 main_v10 (broadcastInDim S3 ![] bcast_S_S3 : (⟨S_, .i32⟩ : BufTy).Contents (Elt F) → (⟨S3, .i32⟩ : BufTy).Contents (Elt F)),
    binary main_c_0 main_v10 main_v11 (addi : (⟨S3, .i32⟩ : BufTy).Contents (Elt F) → (⟨S3, .i32⟩ : BufTy).Contents (Elt F) → (⟨S3, .i32⟩ : BufTy).Contents (Elt F)),
    ternary main_v9 main_v11 main_c_0 main_v12 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v12 main_v13 (broadcastInDim S3x1 ![0] bcast_S3_S3x1_0 : (⟨S3, .i32⟩ : BufTy).Contents (Elt F) → (⟨S3x1, .i32⟩ : BufTy).Contents (Elt F)),
    binary main_arg1 main_v13 main_v14 ((fun x i => Host.gather gather_S2000000x3_S3x1_S2000000x3_0_1_n_n_1_1_20000001 x i) : (⟨S2000000x3, .i32⟩ : BufTy).Contents (Elt F) → (⟨S3x1, .i32⟩ : BufTy).Contents (Elt F) → (⟨S2000000x3, .i32⟩ : BufTy).Contents (Elt F)),
    reshape main_v14 main_v15 rfl shapeCasts_S2000000x3_S6000000,
    binary main_v7 main_v15 main_v16 ((fun a b => concatenate S12000000 0 [⟨S6000000, a⟩, ⟨S6000000, b⟩] concatenates_S6000000_S6000000_S12000000_d0) : (⟨S6000000, .i32⟩ : BufTy).Contents (Elt F) → (⟨S6000000, .i32⟩ : BufTy).Contents (Elt F) → (⟨S12000000, .i32⟩ : BufTy).Contents (Elt F)),
    binary main_v15 main_v7 main_v17 ((fun a b => concatenate S12000000 0 [⟨S6000000, a⟩, ⟨S6000000, b⟩] concatenates_S6000000_S6000000_S12000000_d0) : (⟨S6000000, .i32⟩ : BufTy).Contents (Elt F) → (⟨S6000000, .i32⟩ : BufTy).Contents (Elt F) → (⟨S12000000, .i32⟩ : BufTy).Contents (Elt F)) ]
theorem ops0a_sub : (ops0a : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., binary_bufs_sub ..⟩

/-- the stable sort's four operations, at its call: 4 operations, in order. -/
abbrev ops0b : List (HloOp τ sig (Elt F)) :=
  [ TRef.nullary main_call0.v0 (iotaInDim S12000000 32 0),
    TRef.ternary (.of main_v16) (.of main_v17) main_call0.v0 main_call0.v1_0 (fun x y z => (Host.sort3 S12000000 0 comparator_i32_i32_i32_d0 x y z).1),
    TRef.ternary (.of main_v16) (.of main_v17) main_call0.v0 main_call0.v1_1 (fun x y z => (Host.sort3 S12000000 0 comparator_i32_i32_i32_d0 x y z).2.1),
    TRef.ternary (.of main_v16) (.of main_v17) main_call0.v0 main_call0.v1_2 (fun x y z => (Host.sort3 S12000000 0 comparator_i32_i32_i32_d0 x y z).2.2) ]
theorem ops0b_sub : (ops0b : List (HloOp τ sig (Elt F))).Forall fun op => op.bufs ⊆ tcRefs τ sig :=
  ⟨nullary_bufs_sub .., ternary_bufs_sub .., ternary_bufs_sub .., ternary_bufs_sub ..⟩

/-- the first window's third stretch: the edge lists read back in sorted order: 18 operations, in order. -/
abbrev ops0c : List (HloOp τ sig (Elt F)) :=
  [ nullary main_c_5 (constantI S_ 32 0#32),
    unary main_c_5 main_v19 (broadcastInDim S12000000 ![] bcast_S_S12000000 : (⟨S_, .i32⟩ : BufTy).Contents (Elt F) → (⟨S12000000, .i32⟩ : BufTy).Contents (Elt F)),
    binary main_v18 main_v19 main_v20 (cmpi .slt : (⟨S12000000, .i32⟩ : BufTy).Contents (Elt F) → (⟨S12000000, .i32⟩ : BufTy).Contents (Elt F) → (⟨S12000000, .i1⟩ : BufTy).Contents (Elt F)),
    nullary main_c_6 (constantI S_ 32 12000000#32),
    unary main_c_6 main_v21 (broadcastInDim S12000000 ![] bcast_S_S12000000 : (⟨S_, .i32⟩ : BufTy).Contents (Elt F) → (⟨S12000000, .i32⟩ : BufTy).Contents (Elt F)),
    binary main_v18 main_v21 main_v22 (addi : (⟨S12000000, .i32⟩ : BufTy).Contents (Elt F) → (⟨S12000000, .i32⟩ : BufTy).Contents (Elt F) → (⟨S12000000, .i32⟩ : BufTy).Contents (Elt F)),
    ternary main_v20 main_v22 main_v18 main_v23 (select : (⟨S12000000, .i1⟩ : BufTy).Contents (Elt F) → (⟨S12000000, .i32⟩ : BufTy).Contents (Elt F) → (⟨S12000000, .i32⟩ : BufTy).Contents (Elt F) → (⟨S12000000, .i32⟩ : BufTy).Contents (Elt F)),
    unary main_v23 main_v24 (broadcastInDim S12000000x1 ![0] bcast_S12000000_S12000000x1_0 : (⟨S12000000, .i32⟩ : BufTy).Contents (Elt F) → (⟨S12000000x1, .i32⟩ : BufTy).Contents (Elt F)),
    binary main_v16 main_v24 main_v25 ((fun x i => Host.gather gather_S12000000_S12000000x1_S12000000_n_0_n_n_0_1_1 x i) : (⟨S12000000, .i32⟩ : BufTy).Contents (Elt F) → (⟨S12000000x1, .i32⟩ : BufTy).Contents (Elt F) → (⟨S12000000, .i32⟩ : BufTy).Contents (Elt F)),
    nullary main_c_7 (constantI S_ 32 0#32),
    unary main_c_7 main_v26 (broadcastInDim S12000000 ![] bcast_S_S12000000 : (⟨S_, .i32⟩ : BufTy).Contents (Elt F) → (⟨S12000000, .i32⟩ : BufTy).Contents (Elt F)),
    binary main_v18 main_v26 main_v27 (cmpi .slt : (⟨S12000000, .i32⟩ : BufTy).Contents (Elt F) → (⟨S12000000, .i32⟩ : BufTy).Contents (Elt F) → (⟨S12000000, .i1⟩ : BufTy).Contents (Elt F)),
    nullary main_c_8 (constantI S_ 32 12000000#32),
    unary main_c_8 main_v28 (broadcastInDim S12000000 ![] bcast_S_S12000000 : (⟨S_, .i32⟩ : BufTy).Contents (Elt F) → (⟨S12000000, .i32⟩ : BufTy).Contents (Elt F)),
    binary main_v18 main_v28 main_v29 (addi : (⟨S12000000, .i32⟩ : BufTy).Contents (Elt F) → (⟨S12000000, .i32⟩ : BufTy).Contents (Elt F) → (⟨S12000000, .i32⟩ : BufTy).Contents (Elt F)),
    ternary main_v27 main_v29 main_v18 main_v30 (select : (⟨S12000000, .i1⟩ : BufTy).Contents (Elt F) → (⟨S12000000, .i32⟩ : BufTy).Contents (Elt F) → (⟨S12000000, .i32⟩ : BufTy).Contents (Elt F) → (⟨S12000000, .i32⟩ : BufTy).Contents (Elt F)),
    unary main_v30 main_v31 (broadcastInDim S12000000x1 ![0] bcast_S12000000_S12000000x1_0 : (⟨S12000000, .i32⟩ : BufTy).Contents (Elt F) → (⟨S12000000x1, .i32⟩ : BufTy).Contents (Elt F)),
    binary main_v17 main_v31 main_v32 ((fun x i => Host.gather gather_S12000000_S12000000x1_S12000000_n_0_n_n_0_1_1 x i) : (⟨S12000000, .i32⟩ : BufTy).Contents (Elt F) → (⟨S12000000x1, .i32⟩ : BufTy).Contents (Elt F) → (⟨S12000000, .i32⟩ : BufTy).Contents (Elt F)) ]
theorem ops0c_sub : (ops0c : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- the first window's last stretch: the weights of the sorted edges: 17 operations, in order. -/
abbrev ops0d : List (HloOp τ sig (Elt F)) :=
  [ nullary main_c_9 (constantI S_ 1 1#1),
    unary main_c_9 main_v33 (broadcastInDim S1 ![] bcast_S_S1 : (⟨S_, .i1⟩ : BufTy).Contents (Elt F) → (⟨S1, .i1⟩ : BufTy).Contents (Elt F)),
    unary main_v25 main_v34 ((extractStridedSlice S11999999 ![1] · slices_S12000000_S11999999_1) : (⟨S12000000, .i32⟩ : BufTy).Contents (Elt F) → (⟨S11999999, .i32⟩ : BufTy).Contents (Elt F)),
    unary main_v25 main_v35 ((extractStridedSlice S11999999 ![0] · slices_S12000000_S11999999_0) : (⟨S12000000, .i32⟩ : BufTy).Contents (Elt F) → (⟨S11999999, .i32⟩ : BufTy).Contents (Elt F)),
    binary main_v34 main_v35 main_v36 (cmpi .ne : (⟨S11999999, .i32⟩ : BufTy).Contents (Elt F) → (⟨S11999999, .i32⟩ : BufTy).Contents (Elt F) → (⟨S11999999, .i1⟩ : BufTy).Contents (Elt F)),
    unary main_v32 main_v37 ((extractStridedSlice S11999999 ![1] · slices_S12000000_S11999999_1) : (⟨S12000000, .i32⟩ : BufTy).Contents (Elt F) → (⟨S11999999, .i32⟩ : BufTy).Contents (Elt F)),
    unary main_v32 main_v38 ((extractStridedSlice S11999999 ![0] · slices_S12000000_S11999999_0) : (⟨S12000000, .i32⟩ : BufTy).Contents (Elt F) → (⟨S11999999, .i32⟩ : BufTy).Contents (Elt F)),
    binary main_v37 main_v38 main_v39 (cmpi .ne : (⟨S11999999, .i32⟩ : BufTy).Contents (Elt F) → (⟨S11999999, .i32⟩ : BufTy).Contents (Elt F) → (⟨S11999999, .i1⟩ : BufTy).Contents (Elt F)),
    binary main_v36 main_v39 main_v40 (ori : (⟨S11999999, .i1⟩ : BufTy).Contents (Elt F) → (⟨S11999999, .i1⟩ : BufTy).Contents (Elt F) → (⟨S11999999, .i1⟩ : BufTy).Contents (Elt F)),
    binary main_v33 main_v40 main_v41 ((fun a b => concatenate S12000000 0 [⟨S1, a⟩, ⟨S11999999, b⟩] concatenates_S1_S11999999_S12000000_d0) : (⟨S1, .i1⟩ : BufTy).Contents (Elt F) → (⟨S11999999, .i1⟩ : BufTy).Contents (Elt F) → (⟨S12000000, .i1⟩ : BufTy).Contents (Elt F)),
    unary main_v41 main_v42 (uitofp .f32 : (⟨S12000000, .i1⟩ : BufTy).Contents (Elt F) → (⟨S12000000, .f32⟩ : BufTy).Contents (Elt F)),
    unary main_v42 main_v43 (broadcastInDim S12000000x1 ![0] bcast_S12000000_S12000000x1_0 : (⟨S12000000, .f32⟩ : BufTy).Contents (Elt F) → (⟨S12000000x1, .f32⟩ : BufTy).Contents (Elt F)),
    nullary main_c_10 (constantI S_ 32 0#32),
    unary main_c_10 main_v44 (broadcastInDim S12000000 ![] bcast_S_S12000000 : (⟨S_, .i32⟩ : BufTy).Contents (Elt F) → (⟨S12000000, .i32⟩ : BufTy).Contents (Elt F)),
    binary main_v32 main_v44 main_v45 (cmpi .slt : (⟨S12000000, .i32⟩ : BufTy).Contents (Elt F) → (⟨S12000000, .i32⟩ : BufTy).Contents (Elt F) → (⟨S12000000, .i1⟩ : BufTy).Contents (Elt F)),
    nullary main_c_11 (constantI S_ 32 1000000#32),
    unary main_c_11 main_v46 (broadcastInDim S12000000 ![] bcast_S_S12000000 : (⟨S_, .i32⟩ : BufTy).Contents (Elt F) → (⟨S12000000, .i32⟩ : BufTy).Contents (Elt F)) ]
theorem ops0d_sub : (ops0d : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub ..⟩

/-- @main's second printed window (statements 61 to 84), the row norm's four operations at its call: 26 operations, in order. -/
abbrev ops1 : List (HloOp τ sig (Elt F)) :=
  [ binary main_v32 main_v46 main_v47 (addi : (⟨S12000000, .i32⟩ : BufTy).Contents (Elt F) → (⟨S12000000, .i32⟩ : BufTy).Contents (Elt F) → (⟨S12000000, .i32⟩ : BufTy).Contents (Elt F)),
    ternary main_v45 main_v47 main_v32 main_v48 (select : (⟨S12000000, .i1⟩ : BufTy).Contents (Elt F) → (⟨S12000000, .i32⟩ : BufTy).Contents (Elt F) → (⟨S12000000, .i32⟩ : BufTy).Contents (Elt F) → (⟨S12000000, .i32⟩ : BufTy).Contents (Elt F)),
    unary main_v48 main_v49 (broadcastInDim S12000000x1 ![0] bcast_S12000000_S12000000x1_0 : (⟨S12000000, .i32⟩ : BufTy).Contents (Elt F) → (⟨S12000000x1, .i32⟩ : BufTy).Contents (Elt F)),
    binary main_arg0 main_v49 main_v50 ((fun x i => Host.gather gather_S1000000x3_S12000000x1_S12000000x3_1_0_n_n_0_1_13 x i) : (⟨S1000000x3, .f32⟩ : BufTy).Contents (Elt F) → (⟨S12000000x1, .i32⟩ : BufTy).Contents (Elt F) → (⟨S12000000x3, .f32⟩ : BufTy).Contents (Elt F)),
    unary main_v43 main_v51 (broadcastInDim S12000000x3 ![0, 1] bcast_S12000000x1_S12000000x3_0_1 : (⟨S12000000x1, .f32⟩ : BufTy).Contents (Elt F) → (⟨S12000000x3, .f32⟩ : BufTy).Contents (Elt F)),
    binary main_v51 main_v50 main_v52 (mulf : (⟨S12000000x3, .f32⟩ : BufTy).Contents (Elt F) → (⟨S12000000x3, .f32⟩ : BufTy).Contents (Elt F) → (⟨S12000000x3, .f32⟩ : BufTy).Contents (Elt F)),
    nullary main_cst (constant S_ .f32 0x00000000#32),
    unary main_cst main_v53 (broadcastInDim S1000000x3 ![] bcast_S_S1000000x3 : (⟨S_, .f32⟩ : BufTy).Contents (Elt F) → (⟨S1000000x3, .f32⟩ : BufTy).Contents (Elt F)),
    unary main_v25 main_v54 (broadcastInDim S12000000x1 ![0] bcast_S12000000_S12000000x1_0 : (⟨S12000000, .i32⟩ : BufTy).Contents (Elt F) → (⟨S12000000x1, .i32⟩ : BufTy).Contents (Elt F)),
    ternary main_v53 main_v54 main_v52 main_v55 ((fun x i u => Host.scatterAdd scatter_S1000000x3_S12000000x1_S12000000x3_1_0_0_1 x i u) : (⟨S1000000x3, .f32⟩ : BufTy).Contents (Elt F) → (⟨S12000000x1, .i32⟩ : BufTy).Contents (Elt F) → (⟨S12000000x3, .f32⟩ : BufTy).Contents (Elt F) → (⟨S1000000x3, .f32⟩ : BufTy).Contents (Elt F)),
    nullary main_cst_12 (constant S_ .f32 0x00000000#32),
    unary main_cst_12 main_v56 (broadcastInDim S1000000 ![] bcast_S_S1000000 : (⟨S_, .f32⟩ : BufTy).Contents (Elt F) → (⟨S1000000, .f32⟩ : BufTy).Contents (Elt F)),
    unary main_v25 main_v57 (broadcastInDim S12000000x1 ![0] bcast_S12000000_S12000000x1_0 : (⟨S12000000, .i32⟩ : BufTy).Contents (Elt F) → (⟨S12000000x1, .i32⟩ : BufTy).Contents (Elt F)),
    ternary main_v56 main_v57 main_v42 main_v58 ((fun x i u => Host.scatterAdd scatter_S1000000_S12000000x1_S12000000_n_0_0_1 x i u) : (⟨S1000000, .f32⟩ : BufTy).Contents (Elt F) → (⟨S12000000x1, .i32⟩ : BufTy).Contents (Elt F) → (⟨S12000000, .f32⟩ : BufTy).Contents (Elt F) → (⟨S1000000, .f32⟩ : BufTy).Contents (Elt F)),
    unary main_v58 main_v59 (broadcastInDim S1000000x1 ![0] bcast_S1000000_S1000000x1_0 : (⟨S1000000, .f32⟩ : BufTy).Contents (Elt F) → (⟨S1000000x1, .f32⟩ : BufTy).Contents (Elt F)),
    unary main_v59 main_v60 (broadcastInDim S1000000x3 ![0, 1] bcast_S1000000x1_S1000000x3_0_1 : (⟨S1000000x1, .f32⟩ : BufTy).Contents (Elt F) → (⟨S1000000x3, .f32⟩ : BufTy).Contents (Elt F)),
    binary main_v60 main_arg0 main_v61 (mulf : (⟨S1000000x3, .f32⟩ : BufTy).Contents (Elt F) → (⟨S1000000x3, .f32⟩ : BufTy).Contents (Elt F) → (⟨S1000000x3, .f32⟩ : BufTy).Contents (Elt F)),
    binary main_v61 main_v55 main_v62 (subf : (⟨S1000000x3, .f32⟩ : BufTy).Contents (Elt F) → (⟨S1000000x3, .f32⟩ : BufTy).Contents (Elt F) → (⟨S1000000x3, .f32⟩ : BufTy).Contents (Elt F)),
    TRef.binary (.of main_v62) (.of main_v62) main_call1.v0 mulf,
    TRef.nullary main_call1.cst (constant S_ .f32 0x00000000#32),
    TRef.binary main_call1.v0 main_call1.cst main_call1.v1 (fun x v => Host.reduceAdd x v reducesTo_S1000000x3_S1000000_d1 h_S_),
    TRef.unary main_call1.v1 main_call1.v2 Host.sqrt,
    nullary main_cst_13 (constant S_ .f32 0x00000000#32),
    binary main_v63 main_cst_13 main_v64 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    nullary main_cst_14 (constant S_ .f32 0x49742400#32),
    binary main_v64 main_cst_14 main_v65 (Host.divf : (⟨S_, .f32⟩ : BufTy).Contents (Elt F) → (⟨S_, .f32⟩ : BufTy).Contents (Elt F) → (⟨S_, .f32⟩ : BufTy).Contents (Elt F)) ]
theorem ops1_sub : (ops1 : List (HloOp τ sig (Elt F))).Forall fun op => op.bufs ⊆ tcRefs τ sig :=
  ⟨binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., binary_bufs_sub .., binary_bufs_sub .., nullary_bufs_sub .., binary_bufs_sub .., unary_bufs_sub .., nullary_bufs_sub .., binary_bufs_sub .., nullary_bufs_sub .., binary_bufs_sub ..⟩

end Cert.ReferenceIdeal.Run

end
-- ==== Proof.Prefix.lean ====
/-
  The part both programs share: from the face table to the per-vertex degree and neighbour sum.
  Every directed edge of every triangle is listed twice (both directions), the edge list is sorted
  lexicographically by (source, destination) through a stable three-key sort carrying the position, the
  sorted lists are read back through the resulting permutation, an edge is kept when it differs from its
  predecessor (the first always is), and the kept edges are summed per source vertex: once with weight one
  (the degree), once with the destination's coordinates (the neighbour sum). Both programs run these same
  operations on the same arguments; here they are named once, as functions of the two argument arrays, so
  that neither side ever has to look inside them.
-/
import proofs.«110358_j30545807409222_1_alg».proof.Proof.Gen.ReferenceIdeal

noncomputable section

namespace Cert.ReferenceIdeal.Pre

open Cert.ReferenceIdeal Cert.ReferenceIdeal.Gen Idealize.ShloMosaic

variable {F : FTy → Type} [FloatOps F]

/-- A column selection given as a constant of (possibly negative) column numbers: negative entries wrap by 3. -/
def wrapCols (c : IVec S3 32) : IVec S3 32 :=
  select (cmpi .slt c (broadcastInDim S3 ![] bcast_S_S3 (constantI S_ 32 0#32)))
    (addi c (broadcastInDim S3 ![] bcast_S_S3 (constantI S_ 32 3#32))) c

/-- The faces' columns taken in the order the constant names, flattened row by row: 6,000,000 vertex numbers. -/
def faceCols (c : IVec S3 32) (faces : IVec S2000000x3 32) : IVec S6000000 32 :=
  shapeCast S6000000
    (Host.gather gather_S2000000x3_S3x1_S2000000x3_0_1_n_n_1_1_20000001 faces
      (broadcastInDim S3x1 ![0] bcast_S3_S3x1_0 (wrapCols c)))
    shapeCasts_S2000000x3_S6000000

/-- Columns (1, 2, 0) of the faces. -/
def colsI (faces : IVec S2000000x3 32) : IVec S6000000 32 := faceCols (fun i => lit0 (S3.rowMajor i)) faces
/-- Columns (2, 0, 1) of the faces. -/
def colsJ (faces : IVec S2000000x3 32) : IVec S6000000 32 := faceCols (fun i => lit1 (S3.rowMajor i)) faces

/-- The sources of the 12,000,000 directed edges (each triangle edge in both directions). -/
def src (faces : IVec S2000000x3 32) : IVec S12000000 32 :=
  concatenate S12000000 0 [⟨S6000000, colsI faces⟩, ⟨S6000000, colsJ faces⟩] concatenates_S6000000_S6000000_S12000000_d0
/-- Their destinations. -/
def dst (faces : IVec S2000000x3 32) : IVec S12000000 32 :=
  concatenate S12000000 0 [⟨S6000000, colsJ faces⟩, ⟨S6000000, colsI faces⟩] concatenates_S6000000_S6000000_S12000000_d0

/-- The permutation that sorts the pairs (s, d) lexicographically, ties kept in place. -/
def permOf (s d : IVec S12000000 32) : IVec S12000000 32 :=
  (Host.sort3 S12000000 0 comparator_i32_i32_i32_d0 s d (iotaInDim S12000000 32 0)).2.2

/-- A position list as a gather's index column: negative positions wrap by the list's length. -/
def wrapPos (p : IVec S12000000 32) : IVec S12000000x1 32 :=
  broadcastInDim S12000000x1 ![0] bcast_S12000000_S12000000x1_0
    (select (cmpi .slt p (broadcastInDim S12000000 ![] bcast_S_S12000000 (constantI S_ 32 0#32)))
      (addi p (broadcastInDim S12000000 ![] bcast_S_S12000000 (constantI S_ 32 12000000#32))) p)

/-- A list read back through a permutation. -/
def sortedBy (x p : IVec S12000000 32) : IVec S12000000 32 :=
  Host.gather gather_S12000000_S12000000x1_S12000000_n_0_n_n_0_1_1 x (wrapPos p)

/-- Whether a list differs from itself shifted by one place, entry by entry. -/
def changes (x : IVec S12000000 32) : IVec S11999999 1 :=
  cmpi .ne (extractStridedSlice S11999999 ![1] x slices_S12000000_S11999999_1)
    (extractStridedSlice S11999999 ![0] x slices_S12000000_S11999999_0)

/-- The weight of each sorted edge: one when it differs from its predecessor in source or destination (the first
    always does), else zero. -/
def weightOf (sS dS : IVec S12000000 32) : FVec F S12000000 .f32 :=
  uitofp .f32
    (concatenate S12000000 0
      [⟨S1, broadcastInDim S1 ![] bcast_S_S1 (constantI S_ 1 1#1)⟩,
       ⟨S11999999, ori (changes sS) (changes dS)⟩]
      concatenates_S1_S11999999_S12000000_d0)

/-- Which entries are negative. -/
def isNeg (dS : IVec S12000000 32) : IVec S12000000 1 :=
  cmpi .slt dS (broadcastInDim S12000000 ![] bcast_S_S12000000 (constantI S_ 32 0#32))

/-- The vertex count, spread over the edge list. -/
def nVerts : IVec S12000000 32 := broadcastInDim S12000000 ![] bcast_S_S12000000 (constantI S_ 32 1000000#32)

/-- The sorted destinations as row numbers into the vertex table: negative ones wrap by 1,000,000. -/
def dstRowsOf (dS : IVec S12000000 32) : IVec S12000000x1 32 :=
  broadcastInDim S12000000x1 ![0] bcast_S12000000_S12000000x1_0 (select (isNeg dS) (addi dS nVerts) dS)

/-- A list as the scatter's index column. -/
def asColumn (sS : IVec S12000000 32) : IVec S12000000x1 32 :=
  broadcastInDim S12000000x1 ![0] bcast_S12000000_S12000000x1_0 sS

/-- The weights as a column. -/
def weightColumn (w : FVec F S12000000 .f32) : FVec F S12000000x1 .f32 :=
  broadcastInDim S12000000x1 ![0] bcast_S12000000_S12000000x1_0 w

/-- Per vertex, the weighted sum of the coordinates of the destinations of the edges leaving it. -/
def nbrOf (verts : FVec F S1000000x3 .f32) (sS dS : IVec S12000000 32) (w : FVec F S12000000 .f32) : FVec F S1000000x3 .f32 :=
  Host.scatterAdd scatter_S1000000x3_S12000000x1_S12000000x3_1_0_0_1
    (broadcastInDim S1000000x3 ![] bcast_S_S1000000x3 (constant S_ .f32 0x00000000#32))
    (asColumn sS)
    (mulf
      (broadcastInDim S12000000x3 ![0, 1] bcast_S12000000x1_S12000000x3_0_1 (weightColumn w))
      (Host.gather gather_S1000000x3_S12000000x1_S12000000x3_1_0_n_n_0_1_13 verts (dstRowsOf dS)))

/-- Per vertex, the sum of the weights of the edges leaving it. -/
def degOf (sS : IVec S12000000 32) (w : FVec F S12000000 .f32) : FVec F S1000000 .f32 :=
  Host.scatterAdd scatter_S1000000_S12000000x1_S12000000_n_0_0_1
    (broadcastInDim S1000000 ![] bcast_S_S1000000 (constant S_ .f32 0x00000000#32))
    (asColumn sS) w

/-- The sorting permutation of the faces' edges. -/
def perm (faces : IVec S2000000x3 32) : IVec S12000000 32 := permOf (src faces) (dst faces)
/-- The sources in sorted order. -/
def srcS (faces : IVec S2000000x3 32) : IVec S12000000 32 := sortedBy (src faces) (perm faces)
/-- The destinations in sorted order. -/
def dstS (faces : IVec S2000000x3 32) : IVec S12000000 32 := sortedBy (dst faces) (perm faces)
/-- The weight of each sorted edge: one for the first of each distinct (source, destination) pair. -/
def weight (faces : IVec S2000000x3 32) : FVec F S12000000 .f32 := weightOf (srcS faces) (dstS faces)
/-- Per vertex, the sum of the coordinates of its distinct neighbours. -/
def nbr (verts : FVec F S1000000x3 .f32) (faces : IVec S2000000x3 32) : FVec F S1000000x3 .f32 :=
  nbrOf verts (srcS faces) (dstS faces) (weight (F := F) faces)
/-- Per vertex, the number of its distinct neighbours. -/
def deg (faces : IVec S2000000x3 32) : FVec F S1000000 .f32 := degOf (srcS faces) (weight (F := F) faces)

/-- Degree times the vertex, minus the neighbour sum, row by row. -/
def lapOf (verts : FVec F S1000000x3 .f32) (d : FVec F S1000000 .f32) (n : FVec F S1000000x3 .f32) : FVec F S1000000x3 .f32 :=
  subf
    (mulf
      (broadcastInDim S1000000x3 ![0, 1] bcast_S1000000x1_S1000000x3_0_1
        (broadcastInDim S1000000x1 ![0] bcast_S1000000_S1000000x1_0 d))
      verts)
    n

/-- The sum over the rows of a 1,000,000 × 3 table of their Euclidean lengths, as the host computes it
    (row sums of squares from zero, square roots, their sum from zero). -/
def sumOf (l : FVec F S1000000x3 .f32) : FVec F S_ .f32 :=
  Host.reduceAdd
    (Host.sqrt (Host.reduceAdd (mulf l l) (constant S_ .f32 0x00000000#32) reducesTo_S1000000x3_S1000000_d1 h_S_))
    (constant S_ .f32 0x00000000#32) reducesTo_S1000000_S_d0 h_S_

/-- The uniform Laplacian applied to the vertices. -/
def lap (verts : FVec F S1000000x3 .f32) (faces : IVec S2000000x3 32) : FVec F S1000000x3 .f32 :=
  lapOf verts (deg (F := F) faces) (nbr verts faces)

/-- The sum over the 1,000,000 vertices of the Euclidean length of the Laplacian's rows. -/
def refSum (verts : FVec F S1000000x3 .f32) (faces : IVec S2000000x3 32) : FVec F S_ .f32 := sumOf (lap verts faces)

/-- The reference's result: that sum divided by 1,000,000, the mean row length. -/
def refOut (verts : FVec F S1000000x3 .f32) (faces : IVec S2000000x3 32) : FVec F S_ .f32 :=
  Host.divf (refSum verts faces) (constant S_ .f32 0x49742400#32)

end Cert.ReferenceIdeal.Pre

end
-- ==== Proof.LibAfter.lean ====
/-
  A general fact about a straight line of host operations: folding two lines one after the other is folding
  their concatenation. It lets a long line be read back stretch by stretch, each stretch against the contents the
  one before it left.
-/
import Idealize.ShloMosaic.Lib.StableHlo.Run

namespace Idealize.ShloMosaic.StableHlo

variable {τ : Topo} {sig : RefSig} {Val : EltTy → Type}

/-- Two lines folded one after the other are their concatenation folded. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RefRun.lean ====
/-
  The reference's run, read back. Its @main is a straight line of host operations (the stable sort and the row
  norm are module-local functions whose bodies run at their call sites), so every weakly fair execution ends with
  each buffer at the fold of the operations over the launch contents. The fold is read stretch by stretch — the two
  edge lists; the sorting permutation; the lists in sorted order; the weights; then degree, neighbour sum,
  Laplacian, row lengths and their mean — each stretch against what the one before left, which gives the closing
  formula `Pre.refOut` of the two argument arrays; the run leaves the arguments unchanged.
-/
import proofs.«110358_j30545807409222_1_alg».proof.Proof.RefOps
import proofs.«110358_j30545807409222_1_alg».proof.Proof.Prefix
import proofs.«110358_j30545807409222_1_alg».proof.Proof.LibAfter

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- All of @main's operations, in order. -/
abbrev ops : List (HloOp τ sig (Elt F)) := ops0a ++ (ops0b ++ (ops0c ++ (ops0d ++ ops1)))

-- eighty-nine binds re-associated: the rewrite under the chain recurses once per statement
set_option maxRecDepth 4096 in
set_option maxHeartbeats 4000000 in
/-- @main is that straight line: the two windows in order, the functions' bodies at their calls; both sides are one
    chain of host steps once sequencing is re-associated. -/
theorem main_eq (c : Dev nD) : main (F := F) c = seq ops := by
  simp only [main, main_part0, main_part1, fn_lexsort.body, fn_norm.body, ops, ops0a, ops0b, ops0c, ops0d, ops1,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of their concatenation. -/
theorem forall_append {P : HloOp τ sig (Elt F) → Prop} {l₁ l₂ : List (HloOp τ sig (Elt F))} (h₁ : l₁.Forall P) (h₂ : l₂.Forall P) :
    (l₁ ++ l₂).Forall P :=
  List.forall_iff_forall_mem.mpr fun op h => (List.mem_append.mp h).elim
    (List.forall_iff_forall_mem.mp h₁ op) (List.forall_iff_forall_mem.mp h₂ op)

theorem ops_sub : (ops : List (HloOp τ sig (Elt F))).Forall fun op => op.bufs ⊆ tcRefs τ sig :=
  forall_append ops0a_sub (forall_append ops0b_sub (forall_append ops0c_sub (forall_append ops0d_sub ops1_sub)))

theorem ops0a_fresh : (ops0a : List (HloOp τ sig (Elt F))).Forall fun op => op.fresh = ∅ := by
  simp only [List.Forall]; repeat' constructor
theorem ops0b_fresh : (ops0b : List (HloOp τ sig (Elt F))).Forall fun op => op.fresh = ∅ := by
  simp only [List.Forall]; repeat' constructor
theorem ops0c_fresh : (ops0c : List (HloOp τ sig (Elt F))).Forall fun op => op.fresh = ∅ := by
  simp only [List.Forall]; repeat' constructor
theorem ops0d_fresh : (ops0d : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops_fresh : (ops : List (HloOp τ sig (Elt F))).Forall fun op => op.fresh = ∅ :=
  forall_append ops0a_fresh (forall_append ops0b_fresh (forall_append ops0c_fresh (forall_append ops0d_fresh ops1_fresh)))

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (hfresh := fun _ => List.forall_iff_forall_mem.mp ops_fresh)

/-! ## The stretches, read back one by one (`W` is whatever the stretch before left) -/

section Stretches

variable (W : Valuation τ sig (Elt F))

-- the two edge lists
theorem a_arg0 : after ops0a W (main_arg0 : DevRef τ sig) = W (main_arg0 : DevRef τ sig) := by after_results_simp
theorem a_arg1 : after ops0a W (main_arg1 : DevRef τ sig) = W (main_arg1 : DevRef τ sig) := by after_results_simp
attribute [local irreducible] Host.gather Host.sort3 Host.scatterAdd Host.reduceAdd Host.sqrt Host.divf concatenate shapeCast extractStridedSlice broadcastInDim in
theorem a_v16 : after ops0a W (main_v16 : DevRef τ sig) = Pre.src (W (main_arg1 : DevRef τ sig)) := by
  after_results_simp
  rfl
attribute [local irreducible] Host.gather Host.sort3 Host.scatterAdd Host.reduceAdd Host.sqrt Host.divf concatenate shapeCast extractStridedSlice broadcastInDim in
theorem a_v17 : after ops0a W (main_v17 : DevRef τ sig) = Pre.dst (W (main_arg1 : DevRef τ sig)) := by
  after_results_simp
  rfl

-- the sorting permutation
theorem b_arg0 : after ops0b W (main_arg0 : DevRef τ sig) = W (main_arg0 : DevRef τ sig) := by after_results_simp
theorem b_arg1 : after ops0b W (main_arg1 : DevRef τ sig) = W (main_arg1 : DevRef τ sig) := by after_results_simp
theorem b_v16 : after ops0b W (main_v16 : DevRef τ sig) = W (main_v16 : DevRef τ sig) := by after_results_simp
theorem b_v17 : after ops0b W (main_v17 : DevRef τ sig) = W (main_v17 : DevRef τ sig) := by after_results_simp
attribute [local irreducible] Host.gather Host.sort3 Host.scatterAdd Host.reduceAdd Host.sqrt Host.divf concatenate shapeCast extractStridedSlice broadcastInDim in
theorem b_v18 : after ops0b W (main_v18 : DevRef τ sig)
    = Pre.permOf (W (main_v16 : DevRef τ sig)) (W (main_v17 : DevRef τ sig)) := by
  after_results_simp
  rfl

-- the lists in sorted order
theorem c_arg0 : after ops0c W (main_arg0 : DevRef τ sig) = W (main_arg0 : DevRef τ sig) := by after_results_simp
theorem c_arg1 : after ops0c W (main_arg1 : DevRef τ sig) = W (main_arg1 : DevRef τ sig) := by after_results_simp
attribute [local irreducible] Host.gather Host.sort3 Host.scatterAdd Host.reduceAdd Host.sqrt Host.divf concatenate shapeCast extractStridedSlice broadcastInDim in
theorem c_v25 : after ops0c W (main_v25 : DevRef τ sig)
    = Pre.sortedBy (W (main_v16 : DevRef τ sig)) (W (main_v18 : DevRef τ sig)) := by
  after_results_simp
  rfl
attribute [local irreducible] Host.gather Host.sort3 Host.scatterAdd Host.reduceAdd Host.sqrt Host.divf concatenate shapeCast extractStridedSlice broadcastInDim in
theorem c_v32 : after ops0c W (main_v32 : DevRef τ sig)
    = Pre.sortedBy (W (main_v17 : DevRef τ sig)) (W (main_v18 : DevRef τ sig)) := by
  after_results_simp
  rfl

-- the weights
theorem d_arg0 : after ops0d W (main_arg0 : DevRef τ sig) = W (main_arg0 : DevRef τ sig) := by after_results_simp
theorem d_arg1 : after ops0d W (main_arg1 : DevRef τ sig) = W (main_arg1 : DevRef τ sig) := by after_results_simp
theorem d_v25 : after ops0d W (main_v25 : DevRef τ sig) = W (main_v25 : DevRef τ sig) := by after_results_simp
theorem d_v32 : after ops0d W (main_v32 : DevRef τ sig) = W (main_v32 : DevRef τ sig) := by after_results_simp
attribute [local irreducible] Host.gather Host.sort3 Host.scatterAdd Host.reduceAdd Host.sqrt Host.divf concatenate shapeCast extractStridedSlice broadcastInDim in
theorem d_v42 : after ops0d W (main_v42 : DevRef τ sig)
    = Pre.weightOf (F := F) (W (main_v25 : DevRef τ sig)) (W (main_v32 : DevRef τ sig)) := by
  after_results_simp
  rfl
attribute [local irreducible] Host.gather Host.sort3 Host.scatterAdd Host.reduceAdd Host.sqrt Host.divf concatenate shapeCast extractStridedSlice broadcastInDim in
theorem d_v43 : after ops0d W (main_v43 : DevRef τ sig)
    = Pre.weightColumn (Pre.weightOf (F := F) (W (main_v25 : DevRef τ sig)) (W (main_v32 : DevRef τ sig))) := by
  after_results_simp
  rfl
attribute [local irreducible] Host.gather Host.sort3 Host.scatterAdd Host.reduceAdd Host.sqrt Host.divf concatenate shapeCast extractStridedSlice broadcastInDim in
theorem d_v45 : after ops0d W (main_v45 : DevRef τ sig) = Pre.isNeg (W (main_v32 : DevRef τ sig)) := by
  after_results_simp
  rfl
attribute [local irreducible] Host.gather Host.sort3 Host.scatterAdd Host.reduceAdd Host.sqrt Host.divf concatenate shapeCast extractStridedSlice broadcastInDim in
theorem d_v46 : after ops0d W (main_v46 : DevRef τ sig) = Pre.nVerts := by
  after_results_simp
  rfl

-- degree, neighbour sum, Laplacian, row lengths, their mean
theorem e_arg0 : after ops1 W (main_arg0 : DevRef τ sig) = W (main_arg0 : DevRef τ sig) := by after_results_simp
theorem e_arg1 : after ops1 W (main_arg1 : DevRef τ sig) = W (main_arg1 : DevRef τ sig) := by after_results_simp

/-- What the last stretch computes from the sorted lists, the weights (also as a column), the sign test and the spread
    vertex count it finds. -/
def lastOf (verts : FVec F S1000000x3 .f32) (sS dS : IVec S12000000 32) (w : FVec F S12000000 .f32)
    (wc : FVec F S12000000x1 .f32) (neg : IVec S12000000 1) (nv : IVec S12000000 32) : FVec F S_ .f32 :=
  Host.divf
    (Pre.sumOf
      (Pre.lapOf verts
        (Host.scatterAdd scatter_S1000000_S12000000x1_S12000000_n_0_0_1
          (broadcastInDim S1000000 ![] bcast_S_S1000000 (constant S_ .f32 0x00000000#32)) (Pre.asColumn sS) w)
        (Host.scatterAdd scatter_S1000000x3_S12000000x1_S12000000x3_1_0_0_1
          (broadcastInDim S1000000x3 ![] bcast_S_S1000000x3 (constant S_ .f32 0x00000000#32)) (Pre.asColumn sS)
          (mulf (broadcastInDim S12000000x3 ![0, 1] bcast_S12000000x1_S12000000x3_0_1 wc)
            (Host.gather gather_S1000000x3_S12000000x1_S12000000x3_1_0_n_n_0_1_13 verts
              (broadcastInDim S12000000x1 ![0] bcast_S12000000_S12000000x1_0 (select neg (addi dS nv) dS)))))))
    (constant S_ .f32 0x49742400#32)

attribute [local irreducible] Host.gather Host.sort3 Host.scatterAdd Host.reduceAdd Host.sqrt Host.divf concatenate shapeCast extractStridedSlice broadcastInDim in
theorem e_v65 : after ops1 W (main_v65 : DevRef τ sig)
    = lastOf (W (main_arg0 : DevRef τ sig)) (W (main_v25 : DevRef τ sig)) (W (main_v32 : DevRef τ sig))
        (W (main_v42 : DevRef τ sig)) (W (main_v43 : DevRef τ sig)) (W (main_v45 : DevRef τ sig)) (W (main_v46 : DevRef τ sig)) := by
  after_results_simp
  rfl

end Stretches

/-! ## All of @main: the result and the arguments -/

section Whole

variable (V : Valuation τ sig (Elt F))

theorem arg0_eq : after ops V (main_arg0 : DevRef τ sig) = V (main_arg0 : DevRef τ sig) := by
  show after (ops0a ++ (ops0b ++ (ops0c ++ (ops0d ++ ops1)))) V _ = _
  rw [after_append, after_append, after_append, after_append, e_arg0, d_arg0, c_arg0, b_arg0, a_arg0]

theorem arg1_eq : after ops V (main_arg1 : DevRef τ sig) = V (main_arg1 : DevRef τ sig) := by
  show after (ops0a ++ (ops0b ++ (ops0c ++ (ops0d ++ ops1)))) V _ = _
  rw [after_append, after_append, after_append, after_append, e_arg1, d_arg1, c_arg1, b_arg1, a_arg1]

/-- The result buffer ends at the closing formula of the two arguments. -/
theorem out_eq : after ops V (main_v65 : DevRef τ sig)
    = Pre.refOut (V (main_arg0 : DevRef τ sig)) (V (main_arg1 : DevRef τ sig)) := by
  show after (ops0a ++ (ops0b ++ (ops0c ++ (ops0d ++ ops1)))) V _ = _
  rw [after_append, after_append, after_append, after_append, e_v65,
    d_arg0, d_v25, d_v32, d_v42, d_v43, d_v45, d_v46, c_arg0, c_v25, c_v32, b_arg0, b_v16, b_v17, b_v18,
    a_arg0, a_v16, a_v17]
  rfl

end Whole

/-- The run, read: the result at `Pre.refOut` of the launch contents of the two arguments, which end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
          = Pre.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v65).trans (out_eq _), (h c main_arg0).trans (arg0_eq _),
      (h c main_arg1).trans (arg1_eq _)⟩)
    (run_main m ρ)

end Cert.ReferenceIdeal.Run

end
-- ==== Proof.KerBody.lean ====
/-
  What the kernel's result array holds. The kernel walks eight blocks of 131,072 lanes; at each it forms the
  block's sum of row lengths and adds it to a one-word accumulator it carries from block to block (cleared at the
  first block), and after the last block copies the accumulator into the output. So the accumulator after block
  `n` is a left-to-right running sum over the blocks `0 … n`, and the output array is the running sum after block 7.
  The lines after the kernel reshape that word to a scalar and divide it by 1,000,000.
-/
import proofs.«110358_j30545807409222_1_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.KerVal

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The accumulator after block `n`: the cleared word plus block 0's sum, then each later block's sum added on. -/
def chain (c : Dev nD) : (n : ℕ) → n < cfg0.N → Vec F S1x1 .f32
  | 0, h => k0_pay2 (iblk m c 0 ⟨0, h⟩) (iblk m c 1 ⟨0, h⟩) (iblk m c 2 ⟨0, h⟩) (k0_pay1 (F := F))
  | n + 1, h => k0_pay2 (iblk m c 0 ⟨n + 1, h⟩) (iblk m c 1 ⟨n + 1, h⟩) (iblk m c 2 ⟨n + 1, h⟩) (chain c n (Nat.lt_of_succ_lt h))

theorem lastLt : 7 < cfg0.N := by rw [show cfg0.N = 8 from N_0]; decide

/-- The program's result: the accumulator after the last block, as a scalar, divided by 1,000,000. -/
def kerOut (c : Dev nD) : FVec F S_ .f32 :=
  Host.divf (shapeCast S_ (chain m c 7 lastLt) shapeCasts_S1x1_S_) (constant S_ .f32 0x49742400#32)

/-- The zero offsets of a whole-buffer access, as the constant function. -/
theorem hz : (![0, 0] : Fin 2 → Nat) = fun _ => 0 := funext fun a => by fin_cases a <;> rfl

/-- First block: the accumulator is cleared, read back, and the block's sum added; it ends at the update of the
    cleared word. -/
theorem scr_A (c : Dev nD) (i : grid0.Coords) (a1 : Memref sig .tc .vmem S1x131072 .f32) (h1 : a1.IsWhole)
    (a2 : Memref sig .tc .vmem S3x131072 .f32) (h2 : a2.IsWhole) (a3 : Memref sig .tc .vmem S3x131072 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i)
    (x0 : Vec F S1x131072 .f32) (x1 : Vec F S3x131072 .f32) (x2 : Vec F S3x131072 .f32) :
    sout0_A_0 c i a1 h1 a2 h2 a3 h3 a4 h4 a5 h5 hc0 hc1 x0 x1 x2 = k0_pay2 x0 x1 x2 (k0_pay1 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz]
  simp only [View.readAt_eq_ld, h1.read_unread, h2.read_unread, h3.read_unread,
    View.ld_unit_zero (S := S1x131072) hz, View.ld_unit_zero (S := S3x131072) hz,
    View.readCov_unit_zero (S := S1x1) _ hz]

/-- A middle block: the accumulator holding `xs` ends at the update of `xs` by the block's sum. -/
theorem scr_B (c : Dev nD) (i : grid0.Coords) (a1 : Memref sig .tc .vmem S1x131072 .f32) (h1 : a1.IsWhole)
    (a2 : Memref sig .tc .vmem S3x131072 .f32) (h2 : a2.IsWhole) (a3 : Memref sig .tc .vmem S3x131072 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i)
    (x0 : Vec F S1x131072 .f32) (x1 : Vec F S3x131072 .f32) (x2 : Vec F S3x131072 .f32) (xs : Vec F S1x1 .f32) :
    sout0_B_0 c i a1 h1 a2 h2 a3 h3 a4 h4 a5 h5 hc0 hc1 x0 x1 x2 xs = k0_pay2 x0 x1 x2 xs := by
  unfold sout0_B_0
  rw [View.read_writes_eq_canon _ _ _ (scover0_B_0 c i a1 h1 a2 h2 a3 h3 a4 h4 a5 h5 hc0 hc1 x0 x1 x2 xs)]
  unfold kernelRun0_B
  dsimp only
  sl_unfold_words
  rw [View.canon_unit_zero (S := S1x1) hz]
  simp only [View.readAt_eq_ld, h1.read_unread, h2.read_unread, h3.read_unread, h5.read_unread,
    View.ld_unit_zero (S := S1x131072) hz, View.ld_unit_zero (S := S3x131072) hz, View.ld_unit_zero (S := S1x1) hz]

/-- The last block leaves the same update in the accumulator. -/
theorem scr_C (c : Dev nD) (i : grid0.Coords) (a1 : Memref sig .tc .vmem S1x131072 .f32) (h1 : a1.IsWhole)
    (a2 : Memref sig .tc .vmem S3x131072 .f32) (h2 : a2.IsWhole) (a3 : Memref sig .tc .vmem S3x131072 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i)
    (x0 : Vec F S1x131072 .f32) (x1 : Vec F S3x131072 .f32) (x2 : Vec F S3x131072 .f32) (xs : Vec F S1x1 .f32) :
    sout0_C_0 c i a1 h1 a2 h2 a3 h3 a4 h4 a5 h5 hc0 hc1 x0 x1 x2 xs = k0_pay2 x0 x1 x2 xs := by
  unfold sout0_C_0
  rw [View.read_writes_eq_canon _ _ _ (scover0_C_0 c i a1 h1 a2 h2 a3 h3 a4 h4 a5 h5 hc0 hc1 x0 x1 x2 xs)]
  unfold kernelRun0_C
  dsimp only
  sl_unfold_words
  rw [View.canon_unit_zero (S := S1x1) hz]
  simp only [View.readAt_eq_ld, h1.read_unread, h2.read_unread, h3.read_unread, h5.read_unread,
    View.ld_unit_zero (S := S1x131072) hz, View.ld_unit_zero (S := S3x131072) hz, View.ld_unit_zero (S := S1x1) hz]

/-- The last block then reads the updated accumulator and stores that word into the output's buffer. -/
theorem out_C (c : Dev nD) (i : grid0.Coords) (a1 : Memref sig .tc .vmem S1x131072 .f32) (h1 : a1.IsWhole)
    (a2 : Memref sig .tc .vmem S3x131072 .f32) (h2 : a2.IsWhole) (a3 : Memref sig .tc .vmem S3x131072 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i)
    (x0 : Vec F S1x131072 .f32) (x1 : Vec F S3x131072 .f32) (x2 : Vec F S3x131072 .f32) (xs : Vec F S1x1 .f32) :
    out0_C_3 c i a1 h1 a2 h2 a3 h3 a4 h4 a5 h5 hc0 hc1 x0 x1 x2 xs = k0_pay2 x0 x1 x2 xs := by
  unfold out0_C_3
  rw [View.read_writes_eq_canon _ _ _ (cover0_C_3 c i a1 h1 a2 h2 a3 h3 a4 h4 a5 h5 hc0 hc1 x0 x1 x2 xs)]
  unfold kernelRun0_C
  dsimp only
  sl_unfold_words
  rw [View.canon_unit_zero (S := S1x1) hz]
  simp only [View.readAt_eq_ld, h1.read_unread, h2.read_unread, h3.read_unread, h5.read_unread,
    View.ld_unit_zero (S := S1x131072) hz, View.ld_unit_zero (S := S3x131072) hz, View.ld_unit_zero (S := S1x1) hz,
    View.readCov_unit_zero (S := S1x1) _ hz]

/-- The running sum's two defining equations. -/
theorem chain_zero (c : Dev nD) (h : 0 < cfg0.N) :
    chain m c 0 h = k0_pay2 (iblk m c 0 ⟨0, h⟩) (iblk m c 1 ⟨0, h⟩) (iblk m c 2 ⟨0, h⟩) (k0_pay1 (F := F)) := rfl

theorem chain_succ (c : Dev nD) (n : ℕ) (h : n + 1 < cfg0.N) :
    chain m c (n + 1) h = k0_pay2 (iblk m c 0 ⟨n + 1, h⟩) (iblk m c 1 ⟨n + 1, h⟩) (iblk m c 2 ⟨n + 1, h⟩)
      (chain m c n (Nat.lt_of_succ_lt h)) := rfl

/-- At the first block the accumulator ends at the update of the cleared word by that block's sum. -/
theorem acc_first (c : Dev nD) (t : Fin cfg0.N) (h0 : t.val % 8 = 0) (h1 : ¬t.val % 8 = 7) :
    (outsAt0 m c t.val t.isLt).2
      = k0_pay2 (iblk m c 0 t) (iblk m c 1 t) (iblk m c 2 t) (k0_pay1 (F := F)) := by
  rw [outsAt0_A m c t h0 h1]; dsimp only
  exact scr_A (F := F) c (grid0.coords t) (ms0_0 t) (hs0_0 t) (ms0_1 t) (hs0_1 t) (ms0_2 t) (hs0_2 t)
    (ms0_3 t) (hs0_3 t) scM0_0 (Memref.isWhole_whole _) ((hcond0_0 t).mpr h0) (fun h => h1 ((hcond0_1 t).mp h))
    (iblk m c 0 t) (iblk m c 1 t) (iblk m c 2 t)

/-- At a middle block it ends at the update, by that block's sum, of what the block before left. -/
theorem acc_mid (c : Dev nD) (t : Fin cfg0.N) (h0 : ¬t.val % 8 = 0) (h1 : ¬t.val % 8 = 7) :
    (outsAt0 m c t.val t.isLt).2
      = k0_pay2 (iblk m c 0 t) (iblk m c 1 t) (iblk m c 2 t)
          (outsAt0 m c (t.val - 1) (Nat.lt_of_le_of_lt (Nat.sub_le _ _) t.isLt)).2 := by
  rw [outsAt0_B m c t h0 h1]; dsimp only
  exact scr_B (F := F) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) (fun h => h1 ((hcond0_1 t).mp h))
    (iblk m c 0 t) (iblk m c 1 t) (iblk m c 2 t)
    (outsAt0 m c (t.val - 1) (Nat.lt_of_le_of_lt (Nat.sub_le _ _) t.isLt)).2

/-- And the same at the last block. -/
theorem acc_last (c : Dev nD) (t : Fin cfg0.N) (h0 : ¬t.val % 8 = 0) (h1 : t.val % 8 = 7) :
    (outsAt0 m c t.val t.isLt).2
      = k0_pay2 (iblk m c 0 t) (iblk m c 1 t) (iblk m c 2 t)
          (outsAt0 m c (t.val - 1) (Nat.lt_of_le_of_lt (Nat.sub_le _ _) t.isLt)).2 := by
  rw [outsAt0_C m c t h0 h1]; dsimp only
  exact scr_C (F := F) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) ((hcond0_1 t).mpr h1)
    (iblk m c 0 t) (iblk m c 1 t) (iblk m c 2 t)
    (outsAt0 m c (t.val - 1) (Nat.lt_of_le_of_lt (Nat.sub_le _ _) t.isLt)).2

/-- At the last block the word stored into the output's buffer is the accumulator's. -/
theorem out_last (c : Dev nD) (t : Fin cfg0.N) (h0 : ¬t.val % 8 = 0) (h1 : t.val % 8 = 7) :
    (outsAt0 m c t.val t.isLt).1 = (outsAt0 m c t.val t.isLt).2 := by
  rw [outsAt0_C m c t h0 h1]; dsimp only
  exact (out_C (F := F) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) ((hcond0_1 t).mpr h1)
    (iblk m c 0 t) (iblk m c 1 t) (iblk m c 2 t)
    (outsAt0 m c (t.val - 1) (Nat.lt_of_le_of_lt (Nat.sub_le _ _) t.isLt)).2).trans
    (scr_C (F := F) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) ((hcond0_1 t).mpr h1)
    (iblk m c 0 t) (iblk m c 1 t) (iblk m c 2 t)
    (outsAt0 m c (t.val - 1) (Nat.lt_of_le_of_lt (Nat.sub_le _ _) t.isLt)).2).symm

/-- THE INVARIANT: after every block the accumulator holds the running sum — by induction on the block. -/
theorem acc_eq (c : Dev nD) : ∀ (n : ℕ) (h : n < cfg0.N), (outsAt0 m c n h).2 = chain m c n h
  | 0, h => acc_first m c ⟨0, h⟩ rfl (by dsimp only; omega)
  | n + 1, h => by
    have hlt : n + 1 < 8 := lt_of_lt_of_eq h N_0
    have h0 : ¬(⟨n + 1, h⟩ : Fin cfg0.N).val % 8 = 0 := by dsimp only; omega
    rw [chain_succ, ← acc_eq c n (Nat.lt_of_succ_lt h)]
    by_cases h1 : (⟨n + 1, h⟩ : Fin cfg0.N).val % 8 = 7
    · exact acc_last m c ⟨n + 1, h⟩ h0 h1
    · exact acc_mid m c ⟨n + 1, h⟩ h0 h1

/-- So the word the last block stores into the output's buffer is the running sum after block 7. -/
theorem out_eq (c : Dev nD) : (outsAt0 m c 7 lastLt).1 = chain m c 7 lastLt :=
  (out_last m c ⟨7, lastLt⟩ (by decide) (by decide)).trans (acc_eq m c 7 lastLt)

/-- The result array's contents: the running sum after block 7. -/
abbrev res (c : Dev nD) : Buf (Elt F) ((c.tc : Thread nD τ).loc main_v65) := chain m c 7 lastLt

/-- The output window's block index is (0, 0) at every block: its block starts at the array's origin. -/
theorem off_zero (t : Fin cfg0.N) : (fun a => win0_3.index t a * main_v65.ty.shape.size a) = fun _ => 0 :=
  funext fun a => by fin_cases a <;> rfl

/-- The one write-back, after block 7, writes the running sum: the block written is the whole 1×1 array. -/
theorem flushed_eq (c : Dev nD) (t : Fin cfg0.N) (hf : (cfg0.win 3).flush t = true) :
    (dats m 0 c).flushed 3 t = ((cfg0.win 3).blk t).view.read (Elt F) (res m c) := by
  have h7 : t = ⟨7, lastLt⟩ :=
    Fin.ext (by have := (flush0_3 t).mp hf; have := lt_of_lt_of_eq t.isLt N_0; dsimp only; omega)
  subst h7
  refine Eq.trans ?_ (Memref.read_access_unit_zero (Elt F) main_v65 (off_zero ⟨7, lastLt⟩)
    (fun a => Nat.le_of_eq (by rw [congrFun (off_zero ⟨7, lastLt⟩) a]; exact Nat.zero_add _)) (res m c)).symm
  show (cfg0.win 3).cut (grid0.coords ⟨7, lastLt⟩) ((dats m 0 c).after 3 ⟨7, lastLt⟩) = _
  rw [after0_3]
  exact out_eq m c

/-- Every index of the 1×1 result array lies in that block, so the array ends holding the running sum. -/
theorem final_o (c : Dev nD) : (dats m 0 c).arrAt 3 cfg0.N = res m c :=
  (dats m 0 c).arrAt_eq_of_cover 3 (res m c) (flushed_eq m c) fun i =>
    ⟨⟨7, lastLt⟩, (flush0_3 ⟨7, lastLt⟩).mpr rfl, by
      show i ∈ ((View.whole main_v65).slice (win0_3.rect ⟨7, lastLt⟩)).set
      rw [View.set_slice_whole, Rect.mem_set_unit]
      intro a
      have hi : (i a : Nat) < main_v65.ty.shape.size a := (i a).isLt
      have ho : win0_3.index ⟨7, lastLt⟩ a * win0_3.size a = 0 := congrFun (off_zero ⟨7, lastLt⟩) a
      have hx : win0_3.xsize (grid0.coords ⟨7, lastLt⟩) a = main_v65.ty.shape.size a := rfl
      rw [ho, hx]
      omega⟩

/-- The lines after the kernel read the result array (window 3's), reshape its word to a scalar and divide. -/
theorem tail_eq (c : Dev nD) :
    Pipeline.afterTail₀ cfgs (dats m) 0 (V0 m) [hostOps1] c main_v67 = kerOut m c := by
  unfold Pipeline.afterTail₀
  show StableHlo.after hostOps1 _ (Proc.devRef .tc main_v67) = _
  after_results
  have hw : Pipeline.withArrays (cfgs 0).spec c (V0 m c) (fun w => (dats m 0 c).arrAt w (cfgs 0).N)
      (Proc.devRef .tc main_v65) = res m c :=
    (Pipeline.withArrays_arr spec0 launch0.win.arr_inj c _ _ 3).trans (final_o m c)
  rw [hw]
  unfold kerOut
  rfl

/-- The run, read: the result buffer at `kerOut`, the argument arrays unchanged. -/
theorem run : θ_run defs (onTc (τ := τ) (main (F := F))) ⟨m, fun _ => 0, ρ⟩ fun r => ∀ c : Dev nD,
      r.2.mem ((c.tc : Thread nD τ).loc main_v67) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v67 (Pipeline.mem_restRefs_of main_v67 (by decide) (by decide))).trans (tail_eq m c),
     ((h c).2 main_arg0 (Pipeline.mem_restRefs_of main_arg0 (by decide) (by decide))).trans
       (W_main_arg0 m (dats m) c),
     ((h c).2 main_arg1 (Pipeline.mem_restRefs_of main_arg1 (by decide) (by decide))).trans
       (W_main_arg1 m (dats m) c)⟩)
    (run_main m ρ)

end Cert.KernelIdeal.KerVal

end
-- ==== Proof.KerOps.lean ====
/- (a table: the kernel program's host operations between the sort and the padding, as three literal lists) -/
import proofs.«110358_j30545807409222_1_alg».proof.Proof.Gen.KernelIdeal
import Idealize.ShloMosaic.Lib.StableHlo.Run

noncomputable section

namespace Cert.KernelIdeal.KerOps

open Cert.KernelIdeal Cert.KernelIdeal.Gen Idealize.ShloMosaic Idealize.ShloMosaic.TcCoe Idealize.SL.Sem

variable {F : FTy → Type} [FloatOps F]

/-- the edge lists read back in sorted order: 18 operations, in order. -/
abbrev kc : List (HloOp τ sig (Elt F)) :=
  [ StableHlo.nullary main_c_5 (constantI S_ 32 0#32),
    StableHlo.unary main_c_5 main_v19 (broadcastInDim S12000000 ![] bcast_S_S12000000 : (⟨S_, .i32⟩ : BufTy).Contents (Elt F) → (⟨S12000000, .i32⟩ : BufTy).Contents (Elt F)),
    StableHlo.binary main_v18 main_v19 main_v20 (cmpi .slt : (⟨S12000000, .i32⟩ : BufTy).Contents (Elt F) → (⟨S12000000, .i32⟩ : BufTy).Contents (Elt F) → (⟨S12000000, .i1⟩ : BufTy).Contents (Elt F)),
    StableHlo.nullary main_c_6 (constantI S_ 32 12000000#32),
    StableHlo.unary main_c_6 main_v21 (broadcastInDim S12000000 ![] bcast_S_S12000000 : (⟨S_, .i32⟩ : BufTy).Contents (Elt F) → (⟨S12000000, .i32⟩ : BufTy).Contents (Elt F)),
    StableHlo.binary main_v18 main_v21 main_v22 (addi : (⟨S12000000, .i32⟩ : BufTy).Contents (Elt F) → (⟨S12000000, .i32⟩ : BufTy).Contents (Elt F) → (⟨S12000000, .i32⟩ : BufTy).Contents (Elt F)),
    StableHlo.ternary main_v20 main_v22 main_v18 main_v23 (select : (⟨S12000000, .i1⟩ : BufTy).Contents (Elt F) → (⟨S12000000, .i32⟩ : BufTy).Contents (Elt F) → (⟨S12000000, .i32⟩ : BufTy).Contents (Elt F) → (⟨S12000000, .i32⟩ : BufTy).Contents (Elt F)),
    StableHlo.unary main_v23 main_v24 (broadcastInDim S12000000x1 ![0] bcast_S12000000_S12000000x1_0 : (⟨S12000000, .i32⟩ : BufTy).Contents (Elt F) → (⟨S12000000x1, .i32⟩ : BufTy).Contents (Elt F)),
    StableHlo.binary main_v16 main_v24 main_v25 ((fun x i => Host.gather gather_S12000000_S12000000x1_S12000000_n_0_n_n_0_1_1 x i) : (⟨S12000000, .i32⟩ : BufTy).Contents (Elt F) → (⟨S12000000x1, .i32⟩ : BufTy).Contents (Elt F) → (⟨S12000000, .i32⟩ : BufTy).Contents (Elt F)),
    StableHlo.nullary main_c_7 (constantI S_ 32 0#32),
    StableHlo.unary main_c_7 main_v26 (broadcastInDim S12000000 ![] bcast_S_S12000000 : (⟨S_, .i32⟩ : BufTy).Contents (Elt F) → (⟨S12000000, .i32⟩ : BufTy).Contents (Elt F)),
    StableHlo.binary main_v18 main_v26 main_v27 (cmpi .slt : (⟨S12000000, .i32⟩ : BufTy).Contents (Elt F) → (⟨S12000000, .i32⟩ : BufTy).Contents (Elt F) → (⟨S12000000, .i1⟩ : BufTy).Contents (Elt F)),
    StableHlo.nullary main_c_8 (constantI S_ 32 12000000#32),
    StableHlo.unary main_c_8 main_v28 (broadcastInDim S12000000 ![] bcast_S_S12000000 : (⟨S_, .i32⟩ : BufTy).Contents (Elt F) → (⟨S12000000, .i32⟩ : BufTy).Contents (Elt F)),
    StableHlo.binary main_v18 main_v28 main_v29 (addi : (⟨S12000000, .i32⟩ : BufTy).Contents (Elt F) → (⟨S12000000, .i32⟩ : BufTy).Contents (Elt F) → (⟨S12000000, .i32⟩ : BufTy).Contents (Elt F)),
    StableHlo.ternary main_v27 main_v29 main_v18 main_v30 (select : (⟨S12000000, .i1⟩ : BufTy).Contents (Elt F) → (⟨S12000000, .i32⟩ : BufTy).Contents (Elt F) → (⟨S12000000, .i32⟩ : BufTy).Contents (Elt F) → (⟨S12000000, .i32⟩ : BufTy).Contents (Elt F)),
    StableHlo.unary main_v30 main_v31 (broadcastInDim S12000000x1 ![0] bcast_S12000000_S12000000x1_0 : (⟨S12000000, .i32⟩ : BufTy).Contents (Elt F) → (⟨S12000000x1, .i32⟩ : BufTy).Contents (Elt F)),
    StableHlo.binary main_v17 main_v31 main_v32 ((fun x i => Host.gather gather_S12000000_S12000000x1_S12000000_n_0_n_n_0_1_1 x i) : (⟨S12000000, .i32⟩ : BufTy).Contents (Elt F) → (⟨S12000000x1, .i32⟩ : BufTy).Contents (Elt F) → (⟨S12000000, .i32⟩ : BufTy).Contents (Elt F)) ]

/-- the weights of the sorted edges: 17 operations, in order. -/
abbrev kd : List (HloOp τ sig (Elt F)) :=
  [ StableHlo.nullary main_c_9 (constantI S_ 1 1#1),
    StableHlo.unary main_c_9 main_v33 (broadcastInDim S1 ![] bcast_S_S1 : (⟨S_, .i1⟩ : BufTy).Contents (Elt F) → (⟨S1, .i1⟩ : BufTy).Contents (Elt F)),
    StableHlo.unary main_v25 main_v34 ((extractStridedSlice S11999999 ![1] · slices_S12000000_S11999999_1) : (⟨S12000000, .i32⟩ : BufTy).Contents (Elt F) → (⟨S11999999, .i32⟩ : BufTy).Contents (Elt F)),
    StableHlo.unary main_v25 main_v35 ((extractStridedSlice S11999999 ![0] · slices_S12000000_S11999999_0) : (⟨S12000000, .i32⟩ : BufTy).Contents (Elt F) → (⟨S11999999, .i32⟩ : BufTy).Contents (Elt F)),
    StableHlo.binary main_v34 main_v35 main_v36 (cmpi .ne : (⟨S11999999, .i32⟩ : BufTy).Contents (Elt F) → (⟨S11999999, .i32⟩ : BufTy).Contents (Elt F) → (⟨S11999999, .i1⟩ : BufTy).Contents (Elt F)),
    StableHlo.unary main_v32 main_v37 ((extractStridedSlice S11999999 ![1] · slices_S12000000_S11999999_1) : (⟨S12000000, .i32⟩ : BufTy).Contents (Elt F) → (⟨S11999999, .i32⟩ : BufTy).Contents (Elt F)),
    StableHlo.unary main_v32 main_v38 ((extractStridedSlice S11999999 ![0] · slices_S12000000_S11999999_0) : (⟨S12000000, .i32⟩ : BufTy).Contents (Elt F) → (⟨S11999999, .i32⟩ : BufTy).Contents (Elt F)),
    StableHlo.binary main_v37 main_v38 main_v39 (cmpi .ne : (⟨S11999999, .i32⟩ : BufTy).Contents (Elt F) → (⟨S11999999, .i32⟩ : BufTy).Contents (Elt F) → (⟨S11999999, .i1⟩ : BufTy).Contents (Elt F)),
    StableHlo.binary main_v36 main_v39 main_v40 (ori : (⟨S11999999, .i1⟩ : BufTy).Contents (Elt F) → (⟨S11999999, .i1⟩ : BufTy).Contents (Elt F) → (⟨S11999999, .i1⟩ : BufTy).Contents (Elt F)),
    StableHlo.binary main_v33 main_v40 main_v41 ((fun a b => concatenate S12000000 0 [⟨S1, a⟩, ⟨S11999999, b⟩] concatenates_S1_S11999999_S12000000_d0) : (⟨S1, .i1⟩ : BufTy).Contents (Elt F) → (⟨S11999999, .i1⟩ : BufTy).Contents (Elt F) → (⟨S12000000, .i1⟩ : BufTy).Contents (Elt F)),
    StableHlo.unary main_v41 main_v42 (uitofp .f32 : (⟨S12000000, .i1⟩ : BufTy).Contents (Elt F) → (⟨S12000000, .f32⟩ : BufTy).Contents (Elt F)),
    StableHlo.unary main_v42 main_v43 (broadcastInDim S12000000x1 ![0] bcast_S12000000_S12000000x1_0 : (⟨S12000000, .f32⟩ : BufTy).Contents (Elt F) → (⟨S12000000x1, .f32⟩ : BufTy).Contents (Elt F)),
    StableHlo.nullary main_c_10 (constantI S_ 32 0#32),
    StableHlo.unary main_c_10 main_v44 (broadcastInDim S12000000 ![] bcast_S_S12000000 : (⟨S_, .i32⟩ : BufTy).Contents (Elt F) → (⟨S12000000, .i32⟩ : BufTy).Contents (Elt F)),
    StableHlo.binary main_v32 main_v44 main_v45 (cmpi .slt : (⟨S12000000, .i32⟩ : BufTy).Contents (Elt F) → (⟨S12000000, .i32⟩ : BufTy).Contents (Elt F) → (⟨S12000000, .i1⟩ : BufTy).Contents (Elt F)),
    StableHlo.nullary main_c_11 (constantI S_ 32 1000000#32),
    StableHlo.unary main_c_11 main_v46 (broadcastInDim S12000000 ![] bcast_S_S12000000 : (⟨S_, .i32⟩ : BufTy).Contents (Elt F) → (⟨S12000000, .i32⟩ : BufTy).Contents (Elt F)) ]

/-- degree and neighbour sum, and the integer zero the padding converts: 15 operations, in order. -/
abbrev ke : List (HloOp τ sig (Elt F)) :=
  [ StableHlo.binary main_v32 main_v46 main_v47 (addi : (⟨S12000000, .i32⟩ : BufTy).Contents (Elt F) → (⟨S12000000, .i32⟩ : BufTy).Contents (Elt F) → (⟨S12000000, .i32⟩ : BufTy).Contents (Elt F)),
    StableHlo.ternary main_v45 main_v47 main_v32 main_v48 (select : (⟨S12000000, .i1⟩ : BufTy).Contents (Elt F) → (⟨S12000000, .i32⟩ : BufTy).Contents (Elt F) → (⟨S12000000, .i32⟩ : BufTy).Contents (Elt F) → (⟨S12000000, .i32⟩ : BufTy).Contents (Elt F)),
    StableHlo.unary main_v48 main_v49 (broadcastInDim S12000000x1 ![0] bcast_S12000000_S12000000x1_0 : (⟨S12000000, .i32⟩ : BufTy).Contents (Elt F) → (⟨S12000000x1, .i32⟩ : BufTy).Contents (Elt F)),
    StableHlo.binary main_arg0 main_v49 main_v50 ((fun x i => Host.gather gather_S1000000x3_S12000000x1_S12000000x3_1_0_n_n_0_1_13 x i) : (⟨S1000000x3, .f32⟩ : BufTy).Contents (Elt F) → (⟨S12000000x1, .i32⟩ : BufTy).Contents (Elt F) → (⟨S12000000x3, .f32⟩ : BufTy).Contents (Elt F)),
    StableHlo.unary main_v43 main_v51 (broadcastInDim S12000000x3 ![0, 1] bcast_S12000000x1_S12000000x3_0_1 : (⟨S12000000x1, .f32⟩ : BufTy).Contents (Elt F) → (⟨S12000000x3, .f32⟩ : BufTy).Contents (Elt F)),
    StableHlo.binary main_v51 main_v50 main_v52 (mulf : (⟨S12000000x3, .f32⟩ : BufTy).Contents (Elt F) → (⟨S12000000x3, .f32⟩ : BufTy).Contents (Elt F) → (⟨S12000000x3, .f32⟩ : BufTy).Contents (Elt F)),
    StableHlo.nullary main_cst (constant S_ .f32 0x00000000#32),
    StableHlo.unary main_cst main_v53 (broadcastInDim S1000000x3 ![] bcast_S_S1000000x3 : (⟨S_, .f32⟩ : BufTy).Contents (Elt F) → (⟨S1000000x3, .f32⟩ : BufTy).Contents (Elt F)),
    StableHlo.unary main_v25 main_v54 (broadcastInDim S12000000x1 ![0] bcast_S12000000_S12000000x1_0 : (⟨S12000000, .i32⟩ : BufTy).Contents (Elt F) → (⟨S12000000x1, .i32⟩ : BufTy).Contents (Elt F)),
    StableHlo.ternary main_v53 main_v54 main_v52 main_v55 ((fun x i u => Host.scatterAdd scatter_S1000000x3_S12000000x1_S12000000x3_1_0_0_1 x i u) : (⟨S1000000x3, .f32⟩ : BufTy).Contents (Elt F) → (⟨S12000000x1, .i32⟩ : BufTy).Contents (Elt F) → (⟨S12000000x3, .f32⟩ : BufTy).Contents (Elt F) → (⟨S1000000x3, .f32⟩ : BufTy).Contents (Elt F)),
    StableHlo.nullary main_cst_12 (constant S_ .f32 0x00000000#32),
    StableHlo.unary main_cst_12 main_v56 (broadcastInDim S1000000 ![] bcast_S_S1000000 : (⟨S_, .f32⟩ : BufTy).Contents (Elt F) → (⟨S1000000, .f32⟩ : BufTy).Contents (Elt F)),
    StableHlo.unary main_v25 main_v57 (broadcastInDim S12000000x1 ![0] bcast_S12000000_S12000000x1_0 : (⟨S12000000, .i32⟩ : BufTy).Contents (Elt F) → (⟨S12000000x1, .i32⟩ : BufTy).Contents (Elt F)),
    StableHlo.ternary main_v56 main_v57 main_v42 main_v58 ((fun x i u => Host.scatterAdd scatter_S1000000_S12000000x1_S12000000_n_0_0_1 x i u) : (⟨S1000000, .f32⟩ : BufTy).Contents (Elt F) → (⟨S12000000x1, .i32⟩ : BufTy).Contents (Elt F) → (⟨S12000000, .f32⟩ : BufTy).Contents (Elt F) → (⟨S1000000, .f32⟩ : BufTy).Contents (Elt F)),
    StableHlo.nullary main_c_13 (constantI S_ 32 0#32) ]

end Cert.KernelIdeal.KerOps

end
-- ==== Proof.KerEntry.lean ====
/-
  What the kernel's three input arrays hold when the kernel starts. The lines before it are the shared part
  (the two edge lists, the sorting permutation, the sorted lists, the weights, the degree and the neighbour sum of
  the two arguments) followed by layout only: each of the vertex table, the neighbour sum and the degree is padded
  with zeros from 1,000,000 to 1,048,576 rows, the two tables are transposed to 3 × 1,048,576 and the degree becomes
  a 1 × 1,048,576 row. The lines are read stretch by stretch, each against what the one before left.
-/
import proofs.«110358_j30545807409222_1_alg».proof.Proof.Gen.KernelIdeal.Frame
import proofs.«110358_j30545807409222_1_alg».proof.Proof.Prefix
import proofs.«110358_j30545807409222_1_alg».proof.Proof.LibAfter
import proofs.«110358_j30545807409222_1_alg».proof.Proof.KerOps

noncomputable section

namespace Cert.KernelIdeal.KerVal

open Cert.KernelIdeal Cert.KernelIdeal.Gen Cert.KernelIdeal.KerOps
open Idealize.ShloMosaic Idealize.ShloMosaic.TcCoe Idealize.SL.Sem Idealize.ShloMosaic.StableHlo

variable {F : FTy → Type} [FloatOps F]

/-- The padding value: the integer zero converted to a float. -/
abbrev padZero : FVec F S_ .f32 := sitofp .f32 (constantI S_ 32 0#32)

/-- A 1,000,000 × 3 table padded with zero rows to 1,048,576 rows and transposed: three rows of 1,048,576 lanes. -/
abbrev padT (x : FVec F S1000000x3 .f32) : FVec F S3x1048576 .f32 :=
  transpose S3x1048576 [1, 0]
    (pad S1048576x3 ![0, 0] ![48576, 0] ![0, 0] x (padZero (F := F)) pads_S1000000x3_S1048576x3_0485760_000 h_S_)
    transposes_S1048576x3_S3x1048576_1_0

/-- A 1,000,000-vector padded with zeros to 1,048,576 entries, as one row. -/
abbrev padRow (x : FVec F S1000000 .f32) : FVec F S1x1048576 .f32 :=
  broadcastInDim S1x1048576 ![1] bcast_S1048576_S1x1048576_1
    (pad S1048576 ![0] ![48576] ![0] x (padZero (F := F)) pads_S1000000_S1048576_0485760 h_S_)

/-! ## The stretches before the kernel, read back one by one (`W` is whatever the stretch before left) -/

section Stretches

variable (W : Valuation τ sig (Elt F))

-- the two edge lists
theorem k0_arg0 : after hostOps0 W (main_arg0 : DevRef τ sig) = W (main_arg0 : DevRef τ sig) := by after_results_simp
theorem k0_arg1 : after hostOps0 W (main_arg1 : DevRef τ sig) = W (main_arg1 : DevRef τ sig) := by after_results_simp
attribute [local irreducible] Host.gather Host.sort3 Host.scatterAdd Host.reduceAdd Host.sqrt Host.divf concatenate shapeCast extractStridedSlice broadcastInDim in
theorem k0_v16 : after hostOps0 W (main_v16 : DevRef τ sig) = Cert.ReferenceIdeal.Pre.src (W (main_arg1 : DevRef τ sig)) := by
  after_results_simp
  rfl
attribute [local irreducible] Host.gather Host.sort3 Host.scatterAdd Host.reduceAdd Host.sqrt Host.divf concatenate shapeCast extractStridedSlice broadcastInDim in
theorem k0_v17 : after hostOps0 W (main_v17 : DevRef τ sig) = Cert.ReferenceIdeal.Pre.dst (W (main_arg1 : DevRef τ sig)) := by
  after_results_simp
  rfl

-- the sorting permutation
theorem k1_arg0 : after hostOps0_1 W (main_arg0 : DevRef τ sig) = W (main_arg0 : DevRef τ sig) := by after_results_simp
theorem k1_v16 : after hostOps0_1 W (main_v16 : DevRef τ sig) = W (main_v16 : DevRef τ sig) := by after_results_simp
theorem k1_v17 : after hostOps0_1 W (main_v17 : DevRef τ sig) = W (main_v17 : DevRef τ sig) := by after_results_simp
attribute [local irreducible] Host.gather Host.sort3 Host.scatterAdd Host.reduceAdd Host.sqrt Host.divf concatenate shapeCast extractStridedSlice broadcastInDim in
theorem k1_v18 : after hostOps0_1 W (main_v18 : DevRef τ sig)
    = Cert.ReferenceIdeal.Pre.permOf (W (main_v16 : DevRef τ sig)) (W (main_v17 : DevRef τ sig)) := by
  after_results_simp
  rfl

/-- The long stretch after the sort is the three shorter ones in order. -/
theorem hostOps0_2_eq : (hostOps0_2 : List (HloOp τ sig (Elt F))) = kc ++ (kd ++ ke) := rfl

-- the lists in sorted order
theorem kc_arg0 : after kc W (main_arg0 : DevRef τ sig) = W (main_arg0 : DevRef τ sig) := by after_results_simp
attribute [local irreducible] Host.gather Host.sort3 Host.scatterAdd Host.reduceAdd Host.sqrt Host.divf concatenate shapeCast extractStridedSlice broadcastInDim in
theorem kc_v25 : after kc W (main_v25 : DevRef τ sig)
    = Cert.ReferenceIdeal.Pre.sortedBy (W (main_v16 : DevRef τ sig)) (W (main_v18 : DevRef τ sig)) := by
  after_results_simp
  rfl
attribute [local irreducible] Host.gather Host.sort3 Host.scatterAdd Host.reduceAdd Host.sqrt Host.divf concatenate shapeCast extractStridedSlice broadcastInDim in
theorem kc_v32 : after kc W (main_v32 : DevRef τ sig)
    = Cert.ReferenceIdeal.Pre.sortedBy (W (main_v17 : DevRef τ sig)) (W (main_v18 : DevRef τ sig)) := by
  after_results_simp
  rfl

-- the weights
theorem kd_arg0 : after kd W (main_arg0 : DevRef τ sig) = W (main_arg0 : DevRef τ sig) := by after_results_simp
theorem kd_v25 : after kd W (main_v25 : DevRef τ sig) = W (main_v25 : DevRef τ sig) := by after_results_simp
theorem kd_v32 : after kd W (main_v32 : DevRef τ sig) = W (main_v32 : DevRef τ sig) := by after_results_simp
attribute [local irreducible] Host.gather Host.sort3 Host.scatterAdd Host.reduceAdd Host.sqrt Host.divf concatenate shapeCast extractStridedSlice broadcastInDim in
theorem kd_v42 : after kd W (main_v42 : DevRef τ sig)
    = Cert.ReferenceIdeal.Pre.weightOf (F := F) (W (main_v25 : DevRef τ sig)) (W (main_v32 : DevRef τ sig)) := by
  after_results_simp
  rfl
attribute [local irreducible] Host.gather Host.sort3 Host.scatterAdd Host.reduceAdd Host.sqrt Host.divf concatenate shapeCast extractStridedSlice broadcastInDim in
theorem kd_v43 : after kd W (main_v43 : DevRef τ sig)
    = Cert.ReferenceIdeal.Pre.weightColumn (Cert.ReferenceIdeal.Pre.weightOf (F := F) (W (main_v25 : DevRef τ sig)) (W (main_v32 : DevRef τ sig))) := by
  after_results_simp
  rfl
attribute [local irreducible] Host.gather Host.sort3 Host.scatterAdd Host.reduceAdd Host.sqrt Host.divf concatenate shapeCast extractStridedSlice broadcastInDim in
theorem kd_v45 : after kd W (main_v45 : DevRef τ sig) = Cert.ReferenceIdeal.Pre.isNeg (W (main_v32 : DevRef τ sig)) := by
  after_results_simp
  rfl
attribute [local irreducible] Host.gather Host.sort3 Host.scatterAdd Host.reduceAdd Host.sqrt Host.divf concatenate shapeCast extractStridedSlice broadcastInDim in
theorem kd_v46 : after kd W (main_v46 : DevRef τ sig) = Cert.ReferenceIdeal.Pre.nVerts := by
  after_results_simp
  rfl

-- degree and neighbour sum, and the integer zero the padding converts
theorem ke_arg0 : after ke W (main_arg0 : DevRef τ sig) = W (main_arg0 : DevRef τ sig) := by after_results_simp
theorem ke_c13 : after ke W (main_c_13 : DevRef τ sig) = constantI S_ 32 0#32 := by after_results_simp

/-- The neighbour sum from the sorted lists, the weights (also as a column), the sign test and the spread vertex count
    the stretch finds. -/
def nbrFrom (verts : FVec F S1000000x3 .f32) (sS dS : IVec S12000000 32) (wc : FVec F S12000000x1 .f32)
    (neg : IVec S12000000 1) (nv : IVec S12000000 32) : FVec F S1000000x3 .f32 :=
  Host.scatterAdd scatter_S1000000x3_S12000000x1_S12000000x3_1_0_0_1
    (broadcastInDim S1000000x3 ![] bcast_S_S1000000x3 (constant S_ .f32 0x00000000#32)) (Cert.ReferenceIdeal.Pre.asColumn sS)
    (mulf (broadcastInDim S12000000x3 ![0, 1] bcast_S12000000x1_S12000000x3_0_1 wc)
      (Host.gather gather_S1000000x3_S12000000x1_S12000000x3_1_0_n_n_0_1_13 verts
        (broadcastInDim S12000000x1 ![0] bcast_S12000000_S12000000x1_0 (select neg (addi dS nv) dS))))

attribute [local irreducible] Host.gather Host.sort3 Host.scatterAdd Host.reduceAdd Host.sqrt Host.divf concatenate shapeCast extractStridedSlice broadcastInDim in
theorem ke_v55 : after ke W (main_v55 : DevRef τ sig)
    = nbrFrom (W (main_arg0 : DevRef τ sig)) (W (main_v25 : DevRef τ sig)) (W (main_v32 : DevRef τ sig))
        (W (main_v43 : DevRef τ sig)) (W (main_v45 : DevRef τ sig)) (W (main_v46 : DevRef τ sig)) := by
  after_results_simp
  rfl
attribute [local irreducible] Host.gather Host.sort3 Host.scatterAdd Host.reduceAdd Host.sqrt Host.divf concatenate shapeCast extractStridedSlice broadcastInDim in
theorem ke_v58 : after ke W (main_v58 : DevRef τ sig)
    = Cert.ReferenceIdeal.Pre.degOf (W (main_v25 : DevRef τ sig)) (W (main_v42 : DevRef τ sig)) := by
  after_results_simp
  rfl

-- the layout: pad, pad, pad, transpose, transpose, broadcast
theorem k3_v62 : after (hostOps0_3 ++ (hostOps0_4 ++ (hostOps0_5 ++ (hostOps0_6 ++ (hostOps0_7 ++ (hostOps0_8 ++ [])))))) W (main_v62 : DevRef τ sig)
    = transpose S3x1048576 [1, 0]
        (pad S1048576x3 ![0, 0] ![48576, 0] ![0, 0] (W (main_arg0 : DevRef τ sig)) (sitofp .f32 (W (main_c_13 : DevRef τ sig)))
          pads_S1000000x3_S1048576x3_0485760_000 h_S_)
        transposes_S1048576x3_S3x1048576_1_0 := by
  simp only [hostOps0_3, hostOps0_4, hostOps0_5, hostOps0_6, hostOps0_7, hostOps0_8, List.cons_append, List.nil_append, List.append_nil]
  after_results_simp
  rfl
theorem k3_v63 : after (hostOps0_3 ++ (hostOps0_4 ++ (hostOps0_5 ++ (hostOps0_6 ++ (hostOps0_7 ++ (hostOps0_8 ++ [])))))) W (main_v63 : DevRef τ sig)
    = padT (W (main_v55 : DevRef τ sig)) := by
  simp only [hostOps0_3, hostOps0_4, hostOps0_5, hostOps0_6, hostOps0_7, hostOps0_8, List.cons_append, List.nil_append, List.append_nil]
  after_results_simp
  rfl
theorem k3_v64 : after (hostOps0_3 ++ (hostOps0_4 ++ (hostOps0_5 ++ (hostOps0_6 ++ (hostOps0_7 ++ (hostOps0_8 ++ [])))))) W (main_v64 : DevRef τ sig)
    = padRow (W (main_v58 : DevRef τ sig)) := by
  simp only [hostOps0_3, hostOps0_4, hostOps0_5, hostOps0_6, hostOps0_7, hostOps0_8, List.cons_append, List.nil_append, List.append_nil]
  after_results_simp
  rfl

end Stretches

/-! ## The three input arrays as the kernel finds them -/

variable (m : (ℓ : Loc nD τ sig) → Buf (Elt F) ℓ)

/-- The kernel's third input: the vertex table, padded and transposed. -/
theorem V_verts (c : Dev nD) :
    (V m c main_v62 : FVec F S3x1048576 .f32) = padT (m ((c.tc : Thread nD τ).loc main_arg0)) := by
  dsimp only [V, V0]
  simp only [List.flatten_cons, List.flatten_nil]
  rw [hostOps0_2_eq, after_append hostOps0, after_append hostOps0_1, after_append (kc ++ (kd ++ ke)), after_append kc, after_append kd, k3_v62,
    ke_c13, ke_arg0, kd_arg0, kc_arg0, k1_arg0, k0_arg0]

/-- The kernel's second input: the neighbour sum of the two arguments, padded and transposed. -/
theorem V_nbr (c : Dev nD) :
    (V m c main_v63 : FVec F S3x1048576 .f32)
      = padT (Cert.ReferenceIdeal.Pre.nbr (m ((c.tc : Thread nD τ).loc main_arg0)) (m ((c.tc : Thread nD τ).loc main_arg1))) := by
  dsimp only [V, V0]
  simp only [List.flatten_cons, List.flatten_nil]
  rw [hostOps0_2_eq, after_append hostOps0, after_append hostOps0_1, after_append (kc ++ (kd ++ ke)), after_append kc, after_append kd, k3_v63, ke_v55,
    kd_arg0, kd_v25, kd_v32, kd_v43, kd_v45, kd_v46, kc_arg0, kc_v25, kc_v32, k1_arg0, k1_v16, k1_v17, k1_v18,
    k0_arg0, k0_v16, k0_v17]
  rfl

/-- The kernel's first input: the degree of the face argument, padded, as one row. -/
theorem V_deg (c : Dev nD) :
    (V m c main_v64 : FVec F S1x1048576 .f32)
      = padRow (Cert.ReferenceIdeal.Pre.deg (F := F) (m ((c.tc : Thread nD τ).loc main_arg1))) := by
  dsimp only [V, V0]
  simp only [List.flatten_cons, List.flatten_nil]
  rw [hostOps0_2_eq, after_append hostOps0, after_append hostOps0_1, after_append (kc ++ (kd ++ ke)), after_append kc, after_append kd, k3_v64, ke_v58,
    kd_v25, kd_v42, kc_v25, kc_v32, k1_v16, k1_v17, k1_v18, k0_v16, k0_v17]
  rfl

end Cert.KernelIdeal.KerVal

end
-- ==== Proof.Spec.lean ====
/-
  The mathematics both programs compute, over the extended reals, free of any program: for a vertex with
  degree `d`, coordinates `v` and neighbour sum `n`, the Euclidean length of `d·v − n`; and the sum of these
  lengths over the 1,000,000 vertices. The kernel adds the three squares left to right and sums the lengths
  block by block over a padded axis; the reference sums the squares from zero and the lengths in one pass.
  Addition on the extended reals is commutative and associative, so the two agree; no finiteness is needed.
-/
import Idealize.ShloMosaic.PureOps.Ideal
import Idealize.ShloMosaic.Lib.ValueIdx

noncomputable section

namespace Cert.Spec

open Idealize.ShloMosaic

/-- The length of `d·v − n` in three coordinates, the squares added left to right. -/
def rowNorm (d : EReal) (v n : Fin 3 → EReal) : EReal :=
  Ideal.sqrt (((d * v 0 - n 0) * (d * v 0 - n 0) + (d * v 1 - n 1) * (d * v 1 - n 1))
    + (d * v 2 - n 2) * (d * v 2 - n 2))

/-- The sum of the row lengths over the 1,000,000 vertices. -/
def total (deg : Fin 1000000 → EReal) (verts nbr : Fin 1000000 → Fin 3 → EReal) : EReal :=
  ∑ i : Fin 1000000, rowNorm (deg i) (verts i) (nbr i)

end Cert.Spec

end
-- ==== Proof.KerSum.lean ====
/-
  The accumulator after the last block, read as a sum. Block `t` of an input array is its lanes
  `131072·t … 131072·t + 131071`; the body's partial sum at a block is the sum over the block's lanes of the
  length of (degree · vertex − neighbour sum) in the three rows at that lane; and the running sum over the eight
  blocks, from the cleared accumulator, is the sum over all 1,048,576 lanes (addition on the extended reals is
  associative and commutative, and the cleared word is zero).
-/
import proofs.«110358_j30545807409222_1_alg».proof.Proof.KerBody
import proofs.«110358_j30545807409222_1_alg».proof.Proof.Spec
import Idealize.ShloMosaic.Lib.ValueIdx
import Idealize.ShloMosaic.Lib.ValueLayout
import Idealize.ShloMosaic.PureOps.Ideal.Laws

noncomputable section

namespace Cert.KernelIdeal.KerVal

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The row length at lane `i` of the kernel's three input arrays as the kernel finds them. -/
def laneNorm (c : Dev nD) (i : Fin 1048576) : EReal :=
  Cert.Spec.rowNorm ((V m c main_v64 : FVec Ideal S1x1048576 .f32) (ix2 0 i))
    (fun r => (V m c main_v62 : FVec Ideal S3x1048576 .f32) (ix2 r i))
    (fun r => (V m c main_v63 : FVec Ideal S3x1048576 .f32) (ix2 r i))

namespace KerSum

/-! ## The body's arithmetic at its one index -/

/-- The difference (degree · vertex − neighbour sum) at row `r`, lane `k` of a block. -/
theorem diff_apply (x0 : Vec Ideal S1x131072 .f32) (x1 x2 : Vec Ideal S3x131072 .f32) (r : Fin 3) (k : Fin 131072) :
    (subf (mulf (broadcastTo S3x131072 (shapeCast S1x131072 x0 shapeCasts_S1x131072_S1x131072) broadcasts_S1x131072_S3x131072)
        (shapeCast S3x131072 x2 shapeCasts_S3x131072_S3x131072)) (shapeCast S3x131072 x1 shapeCasts_S3x131072_S3x131072)
      : FVec Ideal S3x131072 .f32) (ix2 r k)
      = x0 (ix2 0 k) * x2 (ix2 r k) - x1 (ix2 r k) := by
  rw [subf_apply, mulf_apply, broadcastTo_1b_ab_apply, shapeCast_self, shapeCast_self, shapeCast_self]

/-- The cleared accumulator holds zero. -/
theorem pay1_apply : (k0_pay1 (F := Ideal)) (ix2 0 0) = 0 := by
  unfold k0_pay1
  rw [shapeCast_self]
  exact Ideal.ofBits_zero_f32

/-- The length of a three-row vector at lane `k`, the squares added left to right, as the body forms it from three row slices. -/
theorem norm_apply (X : FVec Ideal S3x131072 .f32) (k : Fin 131072) :
    (sqrt (addf (addf
        (mulf (extractStridedSlice S1x131072 ![0, 0] X slices_S3x131072_o0_0_S1x131072) (extractStridedSlice S1x131072 ![0, 0] X slices_S3x131072_o0_0_S1x131072))
        (mulf (extractStridedSlice S1x131072 ![1, 0] X slices_S3x131072_o1_0_S1x131072) (extractStridedSlice S1x131072 ![1, 0] X slices_S3x131072_o1_0_S1x131072)))
        (mulf (extractStridedSlice S1x131072 ![2, 0] X slices_S3x131072_o2_0_S1x131072) (extractStridedSlice S1x131072 ![2, 0] X slices_S3x131072_o2_0_S1x131072)))
      : FVec Ideal S1x131072 .f32) (ix2 0 k)
      = Ideal.sqrt ((X (ix2 0 k) * X (ix2 0 k) + X (ix2 1 k) * X (ix2 1 k)) + X (ix2 2 k) * X (ix2 2 k)) := by
  show Ideal.sqrt _ = _
  rw [addf_apply, addf_apply, mulf_apply, mulf_apply, mulf_apply,
    slice2_axis0_apply 0 X _ (0 : Fin 1) k (0 : Fin 3) rfl, slice2_axis0_apply 1 X _ (0 : Fin 1) k (1 : Fin 3) rfl,
    slice2_axis0_apply 2 X _ (0 : Fin 1) k (2 : Fin 3) rfl]

/-- The inserted index of the lane sum: the one kept row with the lane put back. -/
theorem lift_lane (k : Fin 131072) :
    (reduces_S1x131072_S1 : S1x131072.Reduces [1] S1).lift (ix1 (0 : Fin 1)) k = ix2 (0 : Fin 1) k := by
  funext a
  match a with
  | ⟨0, _⟩ => rfl
  | ⟨1, _⟩ => rfl

/-- The body's new accumulator: the old one plus the sum over the block's lanes of the row lengths. -/
theorem pay2_apply (x0 : Vec Ideal S1x131072 .f32) (x1 x2 : Vec Ideal S3x131072 .f32) (acc : Vec Ideal S1x1 .f32) :
    (k0_pay2 x0 x1 x2 acc : FVec Ideal S1x1 .f32) (ix2 0 0)
      = acc (ix2 0 0) + ∑ k : Fin 131072, Cert.Spec.rowNorm (x0 (ix2 0 k)) (fun r => x2 (ix2 r k)) (fun r => x1 (ix2 r k)) := by
  simp only [k0_pay2]
  rw [shapeCast_self, addf_apply, shapeCast_a_1a_apply]
  refine congrArg (acc (ix2 0 0) + ·) ?_
  refine (Ideal.multiReduction_add_single _ _ reduces_S1x131072_S1 _ _ (ix1 (0 : Fin 1))).trans ?_
  refine Finset.sum_congr rfl fun (k : Fin 131072) _ => ?_
  rw [lift_lane, norm_apply, diff_apply, diff_apply, diff_apply]
  rfl

/-! ## Blocks of the arrays -/

/-- Lane `131072·t + k` of the long axis: lane `k` of block `t`. -/
def lane (t : Fin cfg0.N) (k : Fin 131072) : Fin 1048576 :=
  ⟨131072 * t.val + k.val, by have h : t.val < 8 := lt_of_lt_of_eq t.isLt N_0; have := k.isLt; omega⟩

/-- Each input window's block index at grid point `t` is `(0, t)`: decided over the eight points. -/
theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- Block `t` of the degree row reads the array at lane `131072·t + k`. -/
theorem iblk0_apply (c : Dev nD) (t : Fin cfg0.N) (k : Fin 131072) :
    (iblk m c 0 t : Vec Ideal S1x131072 .f32) (ix2 0 k)
      = (V m c main_v64 : FVec Ideal S1x1048576 .f32) (ix2 0 (lane t k)) := by
  unfold iblk
  rw [View.read_apply]
  show V m c main_v64 _ = V m c main_v64 _
  congr 1
  funext a
  apply Fin.ext
  match a with
  | ⟨0, _⟩ => show win0_0.index t (0 : Fin 2) * 1 + 1 * 0 = 0; rw [(idx0 t).1]
  | ⟨1, _⟩ => show win0_0.index t (1 : Fin 2) * 131072 + 1 * k.val = 131072 * t.val + k.val; rw [(idx0 t).2]; omega

/-- Block `t` of the neighbour sums reads the array at row `r`, lane `131072·t + k`. -/
theorem iblk1_apply (c : Dev nD) (t : Fin cfg0.N) (r : Fin 3) (k : Fin 131072) :
    (iblk m c 1 t : Vec Ideal S3x131072 .f32) (ix2 r k)
      = (V m c main_v63 : FVec Ideal S3x1048576 .f32) (ix2 r (lane t k)) := by
  unfold iblk
  rw [View.read_apply]
  show V m c main_v63 _ = V m c main_v63 _
  congr 1
  funext a
  apply Fin.ext
  match a with
  | ⟨0, _⟩ => show win0_1.index t (0 : Fin 2) * 3 + 1 * r.val = r.val; rw [(idx1 t).1]; omega
  | ⟨1, _⟩ => show win0_1.index t (1 : Fin 2) * 131072 + 1 * k.val = 131072 * t.val + k.val; rw [(idx1 t).2]; omega

/-- Block `t` of the vertices reads the array at row `r`, lane `131072·t + k`. -/
theorem iblk2_apply (c : Dev nD) (t : Fin cfg0.N) (r : Fin 3) (k : Fin 131072) :
    (iblk m c 2 t : Vec Ideal S3x131072 .f32) (ix2 r k)
      = (V m c main_v62 : FVec Ideal S3x1048576 .f32) (ix2 r (lane t k)) := by
  unfold iblk
  rw [View.read_apply]
  show V m c main_v62 _ = V m c main_v62 _
  congr 1
  funext a
  apply Fin.ext
  match a with
  | ⟨0, _⟩ => show win0_2.index t (0 : Fin 2) * 3 + 1 * r.val = r.val; rw [(idx2 t).1]; omega
  | ⟨1, _⟩ => show win0_2.index t (1 : Fin 2) * 131072 + 1 * k.val = 131072 * t.val + k.val; rw [(idx2 t).2]; omega

/-! ## One block's step, and the running sum -/

/-- The sum of the row lengths over the lanes of block `t`. -/
def blockSum (c : Dev nD) (t : Fin cfg0.N) : EReal := ∑ k : Fin 131072, laneNorm m c (lane t k)

/-- The body at block `t` adds that block's sum to the accumulator. -/
theorem step (c : Dev nD) (t : Fin cfg0.N) (acc : Vec Ideal S1x1 .f32) :
    (k0_pay2 (iblk m c 0 t) (iblk m c 1 t) (iblk m c 2 t) acc : FVec Ideal S1x1 .f32) (ix2 0 0)
      = acc (ix2 0 0) + blockSum m c t := by
  rw [pay2_apply]
  refine congrArg (acc (ix2 0 0) + ·) (Finset.sum_congr rfl fun k _ => ?_)
  unfold laneNorm
  simp only [iblk0_apply, iblk1_apply, iblk2_apply]

/-- The accumulator after block `n` is the sum of the block sums of the blocks `0 … n`. -/
theorem chain_apply (c : Dev nD) : ∀ (n : ℕ) (h : n < cfg0.N),
    (chain m c n h : FVec Ideal S1x1 .f32) (ix2 0 0)
      = ∑ j : Fin (n + 1), blockSum m c ⟨j.val, lt_of_le_of_lt (Nat.lt_succ_iff.mp j.isLt) h⟩
  | 0, h => by
    show (k0_pay2 (iblk m c 0 ⟨0, h⟩) (iblk m c 1 ⟨0, h⟩) (iblk m c 2 ⟨0, h⟩) (k0_pay1 (F := Ideal)) : FVec Ideal S1x1 .f32) (ix2 0 0) = _
    rw [step, pay1_apply, zero_add, Fin.sum_univ_one]
    rfl
  | n + 1, h => by
    show (k0_pay2 (iblk m c 0 ⟨n + 1, h⟩) (iblk m c 1 ⟨n + 1, h⟩) (iblk m c 2 ⟨n + 1, h⟩) (chain m c n (Nat.lt_of_succ_lt h)) : FVec Ideal S1x1 .f32) (ix2 0 0) = _
    rw [step, chain_apply c n _]
    exact (Fin.sum_univ_castSucc (n := n + 1)
      (fun j : Fin (n + 1 + 1) => blockSum m c ⟨j.val, lt_of_le_of_lt (Nat.lt_succ_iff.mp j.isLt) h⟩)).symm

end KerSum

/-- The accumulator after the last block is the sum of the row lengths over all 1,048,576 lanes. -/
theorem chain_sum (c : Dev nD) :
    (chain m c 7 lastLt : FVec Ideal S1x1 .f32) (ix2 0 0) = ∑ i : Fin 1048576, laneNorm m c i := by
  rw [KerSum.chain_apply, ← Equiv.sum_comp (finProdFinEquiv : Fin 8 × Fin 131072 ≃ Fin 1048576) (laneNorm m c), Fintype.sum_prod_type]
  refine Finset.sum_congr rfl fun (j : Fin 8) _ => ?_
  unfold KerSum.blockSum
  refine Finset.sum_congr rfl fun k _ => ?_
  refine congrArg (laneNorm m c) (Fin.ext ?_)
  show 131072 * j.val + k.val = k.val + 131072 * j.val
  omega

end Cert.KernelIdeal.KerVal

end
-- ==== Proof.PadSum.lean ====
/-
  Padding changes nothing: a lane at or beyond 1,000,000 holds degree 0, vertex 0 and neighbour sum 0, so its
  row length is √(0·0 − 0)² … = 0, and a lane below 1,000,000 holds the unpadded entries of its vertex. So the sum
  of the row lengths over the 1,048,576 padded lanes is the sum over the 1,000,000 vertices.
-/
import proofs.«110358_j30545807409222_1_alg».proof.Proof.KerEntry
import proofs.«110358_j30545807409222_1_alg».proof.Proof.Spec
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.KerVal

open Cert.KernelIdeal Cert.KernelIdeal.Gen
open Idealize.ShloMosaic Idealize.ShloMosaic.ValueIdx

/-! ## The padding value -/

/-- The padding value, the integer zero converted, is the extended real zero at its one index. -/
theorem padZero_apply (j : S_.Idx) : (padZero (F := Ideal)) j = (0 : EReal) :=
  sitofp_zero (φ := .f32)

/-! ## One lane of the padded degree row -/

/-- The padded degree row at lane `i` is the padded vector at entry `i`. -/
theorem padRow_eq_pad (x : FVec Ideal S1000000 .f32) (i : Fin 1048576) :
    padRow x (ix2 0 i)
      = pad S1048576 ![0] ![48576] ![0] x (padZero (F := Ideal)) pads_S1000000_S1048576_0485760 h_S_ (ix1 i) := by
  refine broadcastInDim_apply ![1] bcast_S1048576_S1x1048576_1 _ (ix2 0 i) (ix1 i) ?_
  intro a
  have ha : a = 0 := Subsingleton.elim _ _
  subst ha
  show i.val = if (1048576 : ℕ) = 1 then 0 else i.val
  rw [if_neg (by norm_num)]

/-- Below 1,000,000 the padded degree row holds the vector's own entry. -/
theorem padRow_inside (x : FVec Ideal S1000000 .f32) (i : Fin 1048576) (h : i.val < 1000000) :
    padRow x (ix2 0 i) = x (ix1 ⟨i.val, h⟩) := by
  rw [padRow_eq_pad]
  refine pad_apply_of_inside _ _ _ x _ pads_S1000000_S1048576_0485760 h_S_ (ix1 i) (ix1 (⟨i.val, h⟩ : Fin 1000000)) ?_
  intro a
  have ha : a = 0 := Subsingleton.elim _ _
  subst ha
  show i.val = 0 + i.val * (0 + 1)
  omega

/-- From 1,000,000 on the padded degree row holds zero. -/
theorem padRow_outside (x : FVec Ideal S1000000 .f32) (i : Fin 1048576) (h : 1000000 ≤ i.val) :
    padRow x (ix2 0 i) = (0 : EReal) := by
  rw [padRow_eq_pad]
  refine (pad_apply_of_not_inside _ _ _ x _ pads_S1000000_S1048576_0485760 h_S_ (ix1 i) (0 : Fin 1) ?_).trans
    (padZero_apply _)
  intro hin
  have e : (i.val - 0) / (0 + 1) < 1000000 := hin.2.2
  omega

/-! ## One lane of a padded, transposed table -/

/-- The padded, transposed table at row `r`, lane `i` is the padded table at row `i`, column `r`. -/
theorem padT_eq_pad (x : FVec Ideal S1000000x3 .f32) (r : Fin 3) (i : Fin 1048576) :
    padT x (ix2 r i)
      = pad S1048576x3 ![0, 0] ![48576, 0] ![0, 0] x (padZero (F := Ideal))
          pads_S1000000x3_S1048576x3_0485760_000 h_S_ (ix2 i r) :=
  transpose_ix2_apply _ transposes_S1048576x3_S3x1048576_1_0 r i

/-- Below 1,000,000 the padded, transposed table holds the table's own entry. -/
theorem padT_inside (x : FVec Ideal S1000000x3 .f32) (r : Fin 3) (i : Fin 1048576) (h : i.val < 1000000) :
    padT x (ix2 r i) = x (ix2 ⟨i.val, h⟩ r) := by
  rw [padT_eq_pad]
  refine pad_apply_of_inside _ _ _ x _ pads_S1000000x3_S1048576x3_0485760_000 h_S_ (ix2 i r)
    (ix2 (⟨i.val, h⟩ : Fin 1000000) r) ?_
  intro a
  match a with
  | ⟨0, _⟩ =>
    show i.val = 0 + i.val * (0 + 1)
    omega
  | ⟨1, _⟩ =>
    show r.val = 0 + r.val * (0 + 1)
    omega

/-- From 1,000,000 on the padded, transposed table holds zero. -/
theorem padT_outside (x : FVec Ideal S1000000x3 .f32) (r : Fin 3) (i : Fin 1048576) (h : 1000000 ≤ i.val) :
    padT x (ix2 r i) = (0 : EReal) := by
  rw [padT_eq_pad]
  refine (pad_apply_of_not_inside _ _ _ x _ pads_S1000000x3_S1048576x3_0485760_000 h_S_ (ix2 i r) (0 : Fin 2) ?_).trans
    (padZero_apply _)
  intro hin
  have e : (i.val - 0) / (0 + 1) < 1000000 := hin.2.2
  omega

/-! ## The row length of a padding lane -/

/-- The row length of degree 0, vertex 0 and neighbour sum 0 is √0 = 0. -/
theorem rowNorm_zero : Cert.Spec.rowNorm 0 (fun _ => 0) (fun _ => 0) = 0 := by
  unfold Cert.Spec.rowNorm
  simp only [mul_zero, sub_zero, add_zero]
  rw [← EReal.coe_zero, Ideal.sqrt_coe]
  simp

/-! ## A sum whose terms vanish beyond a bound -/

/-- A sum over `N` lanes whose terms are zero from lane `M` on is the sum over the first `M` lanes. -/
theorem sum_fin_of_zero_beyond {N M : ℕ} (hMN : M ≤ N) (f : Fin N → EReal) (g : Fin M → EReal)
    (hin : ∀ (i : Fin N) (h : i.val < M), f i = g ⟨i.val, h⟩) (hout : ∀ i : Fin N, M ≤ i.val → f i = 0) :
    ∑ i, f i = ∑ i, g i := by
  obtain ⟨k, rfl⟩ := Nat.exists_eq_add_of_le hMN
  rw [Fin.sum_univ_add]
  have h2 : ∑ i : Fin k, f (Fin.natAdd M i) = 0 :=
    Finset.sum_eq_zero fun i _ => hout _ (by show M ≤ M + i.val; omega)
  rw [h2, add_zero]
  exact Finset.sum_congr rfl fun i _ => hin (Fin.castAdd k i) i.isLt

/-- The sum of the row lengths over the padded, re-laid arrays is the sum over the vertices. -/
theorem pad_total (deg : FVec Ideal S1000000 .f32) (verts nbr : FVec Ideal S1000000x3 .f32) :
    (∑ i : Fin 1048576, Cert.Spec.rowNorm (padRow deg (ix2 0 i)) (fun r => padT verts (ix2 r i)) (fun r => padT nbr (ix2 r i)))
      = Cert.Spec.total (fun i => deg (ix1 i)) (fun i r => verts (ix2 i r)) (fun i r => nbr (ix2 i r)) := by
  unfold Cert.Spec.total
  refine sum_fin_of_zero_beyond (by norm_num) _ _ ?_ ?_
  · intro i h
    show Cert.Spec.rowNorm (padRow deg (ix2 0 i)) (fun r => padT verts (ix2 r i)) (fun r => padT nbr (ix2 r i))
      = Cert.Spec.rowNorm (deg (ix1 ⟨i.val, h⟩)) (fun r => verts (ix2 ⟨i.val, h⟩ r)) (fun r => nbr (ix2 ⟨i.val, h⟩ r))
    rw [padRow_inside deg i h]
    congr 1
    · funext r
      exact padT_inside verts r i h
    · funext r
      exact padT_inside nbr r i h
  · intro i h
    show Cert.Spec.rowNorm (padRow deg (ix2 0 i)) (fun r => padT verts (ix2 r i)) (fun r => padT nbr (ix2 r i)) = 0
    rw [padRow_outside deg i h]
    have hv : (fun r => padT verts (ix2 r i)) = fun _ : Fin 3 => (0 : EReal) := funext fun r => padT_outside verts r i h
    have hn : (fun r => padT nbr (ix2 r i)) = fun _ : Fin 3 => (0 : EReal) := funext fun r => padT_outside nbr r i h
    rw [hv, hn]
    exact rowNorm_zero

end Cert.KernelIdeal.KerVal

end
-- ==== Proof.RefVal.lean ====
/-
  The reference's sum, read at the extended reals: a row's sum of squares from zero is the three squares added
  (in any order), its square root the row length, and the sum of the 1,000,000 lengths from zero is their sum.
-/
import proofs.«110358_j30545807409222_1_alg».proof.Proof.Prefix
import proofs.«110358_j30545807409222_1_alg».proof.Proof.Spec
import Idealize.ShloMosaic.Lib.ValueIdx
import Idealize.ShloMosaic.Lib.ValueIdxRank1
import Idealize.ShloMosaic.Lib.ValueLayout
import Idealize.ShloMosaic.Lib.IdealHost
import Idealize.ShloMosaic.PureOps.Ideal.Laws

noncomputable section

namespace Cert.ReferenceIdeal.RefVal

open Cert.ReferenceIdeal Cert.ReferenceIdeal.Gen
open Idealize.ShloMosaic Idealize.ShloMosaic.ValueIdx

/-- The degree broadcast to a column and then along the rows, read at (i, r), is the degree at i. -/
theorem bcastDeg_apply (d : FVec Ideal S1000000 .f32) (i : Fin 1000000) (r : Fin 3) :
    broadcastInDim S1000000x3 ![0, 1] bcast_S1000000x1_S1000000x3_0_1
        (broadcastInDim S1000000x1 ![0] bcast_S1000000_S1000000x1_0 d) (ix2 i r) = d (ix1 i) := by
  rw [broadcastInDim_apply _ _ _ (ix2 i r) (ix2 i (0 : Fin 1)) (fun a => by
        match a with
        | ⟨0, _⟩ => rfl
        | ⟨1, _⟩ => rfl),
      broadcastInDim_apply _ _ _ (ix2 i (0 : Fin 1)) (ix1 i) (fun a => by
        match a with
        | ⟨0, _⟩ => rfl)]

/-- Degree times the vertex minus the neighbour sum, read at (i, r). -/
theorem lap_apply (verts : FVec Ideal S1000000x3 .f32) (d : FVec Ideal S1000000 .f32) (n : FVec Ideal S1000000x3 .f32)
    (i : Fin 1000000) (r : Fin 3) :
    subf (mulf (broadcastInDim S1000000x3 ![0, 1] bcast_S1000000x1_S1000000x3_0_1
        (broadcastInDim S1000000x1 ![0] bcast_S1000000_S1000000x1_0 d)) verts) n (ix2 i r)
      = d (ix1 i) * verts (ix2 i r) - n (ix2 i r) := by
  rw [subf_apply, mulf_apply, bcastDeg_apply]

/-- The index of row i with the column k put back. -/
theorem lift_row (h : S1000000x3.Reduces [1] S1000000) (i : Fin 1000000) (k : Fin 3) :
    h.lift (ix1 i) k = ix2 i k := by
  funext c
  apply Fin.ext
  match c with
  | ⟨0, _⟩ => rfl
  | ⟨1, _⟩ => rfl

/-- A row's sum of squares from zero is the three squares added left to right. -/
theorem rowSq_apply (X : FVec Ideal S1000000x3 .f32) (i : Fin 1000000) :
    Host.reduceAdd (mulf X X) (constant (F := Ideal) S_ .f32 0x00000000#32) reducesTo_S1000000x3_S1000000_d1 h_S_ (ix1 i)
      = (X (ix2 i 0) * X (ix2 i 0) + X (ix2 i 1) * X (ix2 i 1)) + X (ix2 i 2) * X (ix2 i 2) := by
  have h : S1000000x3.Reduces [1] S1000000 := by decide
  rw [hostReduceAdd_apply, constant_apply, Ideal.ofBits_zero_f32,
    Ideal.hostReduceAdd_single reducesTo_S1000000x3_S1000000_d1 h, zero_add]
  show ∑ k : Fin 3, mulf X X (h.lift (ix1 i) k) = _
  rw [Fin.sum_univ_three, lift_row, lift_row, lift_row, mulf_apply, mulf_apply, mulf_apply]

/-- The sum from zero over the one axis of a 1,000,000-vector is the sum of its entries. -/
theorem total_apply (Y : FVec Ideal S1000000 .f32) (j : S_.Idx) :
    Host.reduceAdd Y (constant (F := Ideal) S_ .f32 0x00000000#32) reducesTo_S1000000_S_d0 h_S_ j
      = ∑ i : Fin 1000000, Y (ix1 i) := by
  rw [hostReduceAdd_apply, constant_apply, Ideal.ofBits_zero_f32,
    Ideal.hostReduceAdd_total reducesTo_S1000000_S_d0 (fun b => b.elim0), zero_add]
  exact (Equiv.sum_comp (idxEquiv1 (n := 1000000)).symm Y).symm

/-- The host's square root reads elementwise. -/
theorem hostSqrt_apply {s : Shape} (x : FVec Ideal s .f32) (i : s.Idx) : Host.sqrt x i = Ideal.sqrt (x i) := rfl

/-- The sum of the row lengths of a 1,000,000 × 3 table, as the host computes it, is the sum over the rows of
    the square root of the three squares added left to right. -/
theorem sumLen_apply (X : FVec Ideal S1000000x3 .f32) (j : S_.Idx) :
    Host.reduceAdd
        (Host.sqrt (Host.reduceAdd (mulf X X) (constant (F := Ideal) S_ .f32 0x00000000#32) reducesTo_S1000000x3_S1000000_d1 h_S_))
        (constant (F := Ideal) S_ .f32 0x00000000#32) reducesTo_S1000000_S_d0 h_S_ j
      = ∑ i : Fin 1000000,
          Ideal.sqrt ((X (ix2 i 0) * X (ix2 i 0) + X (ix2 i 1) * X (ix2 i 1)) + X (ix2 i 2) * X (ix2 i 2)) := by
  rw [total_apply]
  exact Finset.sum_congr rfl fun i _ => by rw [hostSqrt_apply, rowSq_apply]

/-- The reference's sum of row lengths is the specification's, of the degree, the vertices and the neighbour sum. -/
theorem refSum_eq (verts : FVec Ideal S1000000x3 .f32) (faces : IVec S2000000x3 32) :
    Pre.refSum (F := Ideal) verts faces
      = fun _ => Cert.Spec.total (fun i => Pre.deg (F := Ideal) faces (ix1 i)) (fun i r => verts (ix2 i r))
          (fun i r => Pre.nbr verts faces (ix2 i r)) := by
  funext j
  unfold Pre.refSum Pre.lap
  -- the degree and the neighbour sum enter only as two given arrays
  generalize Pre.deg (F := Ideal) faces = d
  generalize Pre.nbr verts faces = n
  unfold Pre.sumOf Pre.lapOf
  rw [sumLen_apply]
  unfold Cert.Spec.total Cert.Spec.rowNorm
  exact Finset.sum_congr rfl fun i _ => by rw [lap_apply, lap_apply, lap_apply]

end Cert.ReferenceIdeal.RefVal

end
-- ==== Proof.Bridge.lean ====
/-
  The two results are one function of the arguments. The kernel's accumulator after the last block is the sum of
  the row lengths over the 1,048,576 lanes of its three input arrays; those arrays are the degree, the neighbour
  sum and the vertices, padded with zeros and re-laid, so that sum is the sum over the 1,000,000 vertices; and that
  is the reference's sum. Both programs then divide by the same constant.
-/
import proofs.«110358_j30545807409222_1_alg».proof.Proof.KerBody
import proofs.«110358_j30545807409222_1_alg».proof.Proof.KerEntry
import proofs.«110358_j30545807409222_1_alg».proof.Proof.KerSum
import proofs.«110358_j30545807409222_1_alg».proof.Proof.PadSum
import proofs.«110358_j30545807409222_1_alg».proof.Proof.RefVal
import Idealize.ShloMosaic.Lib.Pipeline.Value

noncomputable section

namespace Cert.KernelIdeal.KerVal

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The accumulator as a scalar is the reference's sum of the launch contents of the two arguments. -/
theorem acc_eq_refSum (c : Dev nD) :
    (shapeCast S_ (chain m c 7 lastLt) shapeCasts_S1x1_S_ : FVec Ideal S_ .f32)
      = Cert.ReferenceIdeal.Pre.refSum (F := Ideal) (m ((c.tc : Thread nD τ).loc main_arg0)) (m ((c.tc : Thread nD τ).loc main_arg1)) := by
  rw [Cert.ReferenceIdeal.RefVal.refSum_eq]
  funext j
  have hk : (S1x1.rowMajor (ix2 (0 : Fin 1) (0 : Fin 1))).val = (S_.rowMajor j).val := by
    have h1 := (S1x1.rowMajor (ix2 (0 : Fin 1) (0 : Fin 1))).isLt
    have h2 := (S_.rowMajor j).isLt
    have e1 : S1x1.numel = 1 := by decide
    have e2 : S_.numel = 1 := by decide
    omega
  rw [shapeCast_apply (chain m c 7 lastLt) shapeCasts_S1x1_S_ j (ix2 (0 : Fin 1) (0 : Fin 1)) hk, chain_sum]
  simp only [laneNorm]
  rw [V_deg, V_nbr, V_verts]
  exact pad_total _ _ _

/-- So the kernel's result is the reference's closing formula. -/
theorem kerOut_eq (c : Dev nD) :
    kerOut m c
      = Cert.ReferenceIdeal.Pre.refOut (F := Ideal) (m ((c.tc : Thread nD τ).loc main_arg0)) (m ((c.tc : Thread nD τ).loc main_arg1)) := by
  unfold kerOut Cert.ReferenceIdeal.Pre.refOut
  rw [acc_eq_refSum]

end Cert.KernelIdeal.KerVal

end
-- ==== Proof.lean ====
/-
  The certificate: a mesh's uniform-Laplacian smoothness loss — the mean over the vertices of the length of
  (degree · vertex − sum of distinct neighbours) — computed once by a kernel that streams the padded, transposed
  degree, neighbour sum and vertex arrays in eight blocks and accumulates the row lengths in one word, and once by
  plain array operations; degree and neighbour sum come, in both programs, from the same sort-and-deduplicate
  pipeline over the face table.
  The two word-level and idealized kernel programs terminate without fault and leave their arguments unchanged
  (their frames); the reference is a straight line of host operations (its run, read back); the ideal pass rewrote
  nothing; and over the extended reals the two results are the same function of the arguments: the shared pipeline
  is carried as one opaque function, padding adds rows of length zero, and the order in which the lengths are added
  does not matter because addition of extended reals is commutative and associative. No input needs to be finite.
-/
import proofs.«110358_j30545807409222_1_alg».proof.Defs
import proofs.«110358_j30545807409222_1_alg».proof.Proof.Gen.Kernel
import proofs.«110358_j30545807409222_1_alg».proof.Proof.Gen.Kernel.Frame
import proofs.«110358_j30545807409222_1_alg».proof.Proof.Gen.KernelIdeal
import proofs.«110358_j30545807409222_1_alg».proof.Proof.Gen.KernelIdeal.Frame
import proofs.«110358_j30545807409222_1_alg».proof.Proof.Gen.ReferenceIdeal
import proofs.«110358_j30545807409222_1_alg».proof.Proof.Gen.Pre_finite_inputs
import proofs.«110358_j30545807409222_1_alg».proof.Proof.RefRun
import proofs.«110358_j30545807409222_1_alg».proof.Proof.KerBody
import proofs.«110358_j30545807409222_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Run.run (F := Ideal) m ρ)

/-- At the extended reals both programs end, from memories agreeing on the arguments, at the same result. -/
theorem algebraic : Cert.algebraic_KernelIdeal_ReferenceIdeal := by
  intro m ρ m' ρ' _ hagree
  refine ⟨fun c => Cert.KernelIdeal.KerVal.kerOut m c, Cert.KernelIdeal.KerVal.run m ρ, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2]
  exact (Cert.KernelIdeal.KerVal.kerOut_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
